-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1x2048 : Shape := ⟨2, ![1, 2048]⟩
abbrev S1 : Shape := ⟨1, ![1]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_arg8 : FVec F S1 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1 .f32) (main_arg5 : FVec F S1x2048 .f32) (main_arg6 : FVec F S1 .f32) (main_arg7 : FVec F S1x1024 .f32) (main_arg8 : FVec F S1 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S16384x1024 .f32) (main_arg1 : FVec F S1024x1024 .f32) (main_arg2 : FVec F S1024x1024 .f32) (main_arg3 : FVec F S1x2048 .f32) (main_arg4 : FVec F S1 .f32) (main_arg5 : FVec F S1x2048 .f32) (main_arg6 : FVec F S1 .f32) (main_arg7 : FVec F S1x1024 .f32) (main_arg8 : FVec F S1 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_arg7 main_arg8 main_v13 main_v16
-- ==== Kernel.lean ====
abbrev S16384x1024 : Shape := ⟨2, ![16384, 1024]⟩
abbrev S1024x1024 : Shape := ⟨2, ![1024, 1024]⟩
abbrev S1x2048 : Shape := ⟨2, ![1, 2048]⟩
abbrev S1 : Shape := ⟨1, ![1]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S1x2048, .f32⟩
  | .hbm, ⟨4, _⟩ => ⟨S1, .f32⟩
  | .hbm, ⟨5, _⟩ => ⟨S1x2048, .f32⟩
  | .hbm, ⟨6, _⟩ => ⟨S1, .f32⟩
  | .hbm, ⟨7, _⟩ => ⟨S1x1024, .f32⟩
  | .hbm, ⟨8, _⟩ => ⟨S1, .f32⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1, .f32⟩
  | .hbm, ⟨15, _⟩ => ⟨S1x1, .f32⟩
  | .hbm, ⟨16, _⟩ => ⟨S1x1, .f32⟩
  | .hbm, ⟨17, _⟩ => ⟨S16384x1024, .f32⟩
  | .hbm, ⟨18, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S1x1024, .f32⟩
  | .local _ .vmem, ⟨8, _⟩ => ⟨S1x1024, .f32⟩
  | .local _ .vmem, ⟨9, _⟩ => ⟨S1x1, .f32⟩
  | .local _ .vmem, ⟨10, _⟩ => ⟨S1x1024, .f32⟩
  | .local _ .vmem, ⟨11, _⟩ => ⟨S1x1, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1024x1024, .f32⟩
  | .local _ .vmem, ⟨16, _⟩ => ⟨S1x1, .f32⟩
  | .local _ .vmem, ⟨17, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v88 : BitVec 1 := Scalar.cmpi .eq arg0 c31_i32
  let v89 : BitVec 32 := Scalar.extui v88
  let c0_i32_46 : BitVec 32 := 0#32
  let v90 : BitVec 1 := Scalar.cmpi .ne v89 c0_i32_46
  v90

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  transposes_S1024x1024_S1024x1024_1_0 : S1024x1024.Transposes [1, 0] S1024x1024
  slices_S1x2048_S1x1024_0_0 : S1x2048.Slices ![0, 0] S1x1024
  slices_S1x2048_S1x1024_0_1024 : S1x2048.Slices ![0, 1024] S1x1024
  shapeCasts_S1_S1x1 : S1.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S1x1_S512x1 : S1x1.Broadcasts S512x1
  broadcasts_S512x1_S512x1024 : S512x1.Broadcasts S512x1024
  reduces_S512x1_S1 : S512x1.Reduces [0] S1
  broadcasts_S1x1_S1024x1024 : S1x1.Broadcasts S1024x1024
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S16384x1024.size a
  hwx0_11 : ∀ i : grid0.Coords, EltTy.bits .f32 = 32 ∨ (Rect.block (s := S16384x1024) S512x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .f32 = 32 ∨ (Rect.block (s := S1024x1024) S1024x1024.size (cc0_transform_12 i) (hinb0_12 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S512x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S1024x1024.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S16384x1024 : Shape := ⟨2, ![16384, 1024]⟩
abbrev S1024x1024 : Shape := ⟨2, ![1024, 1024]⟩
abbrev S1x2048 : Shape := ⟨2, ![1, 2048]⟩
abbrev S1 : Shape := ⟨1, ![1]⟩
abbrev S1x1024 : Shape := ⟨2, ![1, 1024]⟩
abbrev S16384x2048 : Shape := ⟨2, ![16384, 2048]⟩
abbrev S2048x1 : Shape := ⟨2, ![2048, 1]⟩
abbrev S16384x1 : Shape := ⟨2, ![16384, 1]⟩
abbrev S1x1 : Shape := ⟨2, ![1, 1]⟩
abbrev S_ : Shape := ⟨0, ![]⟩
abbrev S1024x1 : Shape := ⟨2, ![1024, 1]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S1x2048, .f32⟩
  | .hbm, ⟨4, _⟩ => ⟨S1, .f32⟩
  | .hbm, ⟨5, _⟩ => ⟨S1x2048, .f32⟩
  | .hbm, ⟨6, _⟩ => ⟨S1, .f32⟩
  | .hbm, ⟨7, _⟩ => ⟨S1x1024, .f32⟩
  | .hbm, ⟨8, _⟩ => ⟨S1, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x2048, .f32⟩
  | .hbm, ⟨14, _⟩ => ⟨S2048x1, .f32⟩
  | .hbm, ⟨15, _⟩ => ⟨S16384x1, .f32⟩
  | .hbm, ⟨16, _⟩ => ⟨S1x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S2048x1, .f32⟩
  | .hbm, ⟨28, _⟩ => ⟨S16384x1, .f32⟩
  | .hbm, ⟨29, _⟩ => ⟨S1x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1024x1024, .f32⟩
  | .hbm, ⟨57, _⟩ => ⟨S1024x1024, .f32⟩
  | .hbm, ⟨58, _⟩ => ⟨S1024x1024, .f32⟩
  | .hbm, ⟨59, _⟩ => ⟨S1024x1, .f32⟩
  | .hbm, ⟨60, _⟩ => ⟨S16384x1, .f32⟩
  | .hbm, ⟨61, _⟩ => ⟨S1x1, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  transposes_S1024x1024_S1024x1024_1_0 : S1024x1024.Transposes [1, 0] S1024x1024
  concatenates_S16384x1024_S16384x1024_S16384x2048_d1 : Shape.Concatenates [S16384x1024, S16384x1024] S16384x2048 1
  transposes_S1x2048_S2048x1_1_0 : S1x2048.Transposes [1, 0] S2048x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  bcast_S_S1024x1024 : S_.BroadcastsInDim S1024x1024 (![] : Fin 0 → Fin S1024x1024.rank)
  reducesTo_S16384x1_S_d0_1 : S16384x1.ReducesTo [0, 1] S_
  h_S_ : 0 < S_.numel
  transposes_S1x1024_S1024x1_1_0 : S1x1024.Transposes [1, 0] S1024x1
  bcast_S16384x1_S16384x1024_0_1 : S16384x1.BroadcastsInDim S16384x1024 (![0, 1] : Fin 2 → Fin S16384x1024.rank)
  dot_S16384x1024_S1024x1024_S16384x1024_1_0_0_1_n_n_wf : DotDims.WF S16384x1024 S1024x1024 S16384x1024 [1] [0] [0] [1] [] []
  dot_S16384x2048_S2048x1_S16384x1_1_0_0_1_n_n_wf : DotDims.WF S16384x2048 S2048x1 S16384x1 [1] [0] [0] [1] [] []
  dot_S16384x1024_S16384x1024_S1024x1024_0_0_1_1_n_n_wf : DotDims.WF S16384x1024 S16384x1024 S1024x1024 [0] [0] [1] [1] [] []
  dot_S16384x1024_S1024x1_S16384x1_1_0_0_1_n_n_wf : DotDims.WF S16384x1024 S1024x1 S16384x1 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf
def dot_S16384x1024_S16384x1024_S1024x1024_0_0_1_1_n_n : DotDims S16384x1024 S16384x1024 S1024x1024 where
  lhsContracting := [0]
  rhsContracting := [0]
  lhsNonContracting := [1]
  rhsNonContracting := [1]
  lhsBatch := []
  rhsBatch := []
  wf := dot_S16384x1024_S16384x1024_S1024x1024_0_0_1_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.KPieces.lean ====
/-
  What each case of the body leaves in the output blocks and in the three accumulators, as values.

  At the first grid point the three accumulators are reset to zero and then updated; at every later point they
  are updated over what the point before left; at the last point the memory block is also stored. Each store
  covers its whole buffer, so what a buffer holds after the body is the last store's payload, with every load
  of the body read as the contents of the buffer it reads.
-/
import proofs.«126891_j18769007084097_1_alg».proof.Proof.Gen.KernelIdeal.Frame
import Idealize.ShloMosaic.Lib.Pipeline.Value
import Idealize.ShloMosaic.Lib.Tactic

set_option maxRecDepth 16384

noncomputable section

namespace Cert.KernelIdeal.Cell

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

section CaseA
variable (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1 .f32) (harg9 : arg9.IsWhole) (arg10 : Memref sig .tc .vmem S1x1024 .f32) (harg10 : arg10.IsWhole) (arg11 : Memref sig .tc .vmem S1x1 .f32) (harg11 : arg11.IsWhole) (arg12 : Memref sig .tc .vmem S512x1024 .f32) (harg12 : arg12.IsWhole) (arg13 : Memref sig .tc .vmem S1024x1024 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i) (x0 : Vec F S512x1024 .f32) (x1 : Vec F S1024x1024 .f32) (x2 : Vec F S1024x1024 .f32) (x3 : Vec F S1x1024 .f32) (x4 : Vec F S1x1024 .f32) (x5 : Vec F S1x1 .f32) (x6 : Vec F S1x1024 .f32) (x7 : Vec F S1x1024 .f32) (x8 : Vec F S1x1 .f32) (x9 : Vec F S1x1024 .f32) (x10 : Vec F S1x1 .f32)

/-- The output block a point of this case leaves: the mixed output of the tile's two products. -/
theorem out11_A : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = k0_pay15 (k0_pay8 x0 x1) (k0_pay9 x0 x2) x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz]

/-- The Hebbian accumulator a point of this case leaves. -/
theorem s0_A : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = k0_pay16 (k0_pay7 x0) (k0_pay10 x0 x1 x2) k0_pay4 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  unfold kernelRun0_A
  dsimp only
  sl_unfold_words
  rw [View.canon_cons_unit_zero (S := S1024x1024) hz, View.readCov_unit_zero (S := S1024x1024) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz]

/-- The forget total a point of this case leaves. -/
theorem s1_A : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = k0_pay1 (k0_pay11 x0 x1 x3 x4 x5) k0_pay5 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz]

/-- The update total a point of this case leaves. -/
theorem s2_A : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = k0_pay2 (k0_pay14 x0 (k0_pay8 x0 x1) (k0_pay12 x7) (k0_pay13 x6) x8) k0_pay6 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz]

end CaseA

section CaseB
variable (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1 .f32) (harg9 : arg9.IsWhole) (arg10 : Memref sig .tc .vmem S1x1024 .f32) (harg10 : arg10.IsWhole) (arg11 : Memref sig .tc .vmem S1x1 .f32) (harg11 : arg11.IsWhole) (arg12 : Memref sig .tc .vmem S512x1024 .f32) (harg12 : arg12.IsWhole) (arg13 : Memref sig .tc .vmem S1024x1024 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i) (x0 : Vec F S512x1024 .f32) (x1 : Vec F S1024x1024 .f32) (x2 : Vec F S1024x1024 .f32) (x3 : Vec F S1x1024 .f32) (x4 : Vec F S1x1024 .f32) (x5 : Vec F S1x1 .f32) (x6 : Vec F S1x1024 .f32) (x7 : Vec F S1x1024 .f32) (x8 : Vec F S1x1 .f32) (x9 : Vec F S1x1024 .f32) (x10 : Vec F S1x1 .f32) (xs0 : Vec F S1024x1024 .f32) (xs1 : Vec F S1x1 .f32) (xs2 : Vec F S1x1 .f32)

/-- The output block a point of this case leaves: the mixed output of the tile's two products. -/
theorem out11_B : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay15 (k0_pay8 x0 x1) (k0_pay9 x0 x2) x9 x10 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz]

/-- The Hebbian accumulator a point of this case leaves. -/
theorem s0_B : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay16 (k0_pay7 x0) (k0_pay10 x0 x1 x2) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz]

/-- The forget total a point of this case leaves. -/
theorem s1_B : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay1 (k0_pay11 x0 x1 x3 x4 x5) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz]

/-- The update total a point of this case leaves. -/
theorem s2_B : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay2 (k0_pay14 x0 (k0_pay8 x0 x1) (k0_pay12 x7) (k0_pay13 x6) x8) xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz]

end CaseB

section CaseC
variable (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1 .f32) (harg9 : arg9.IsWhole) (arg10 : Memref sig .tc .vmem S1x1024 .f32) (harg10 : arg10.IsWhole) (arg11 : Memref sig .tc .vmem S1x1 .f32) (harg11 : arg11.IsWhole) (arg12 : Memref sig .tc .vmem S512x1024 .f32) (harg12 : arg12.IsWhole) (arg13 : Memref sig .tc .vmem S1024x1024 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S512x1024 .f32) (x1 : Vec F S1024x1024 .f32) (x2 : Vec F S1024x1024 .f32) (x3 : Vec F S1x1024 .f32) (x4 : Vec F S1x1024 .f32) (x5 : Vec F S1x1 .f32) (x6 : Vec F S1x1024 .f32) (x7 : Vec F S1x1024 .f32) (x8 : Vec F S1x1 .f32) (x9 : Vec F S1x1024 .f32) (x10 : Vec F S1x1 .f32) (xs0 : Vec F S1024x1024 .f32) (xs1 : Vec F S1x1 .f32) (xs2 : Vec F S1x1 .f32)

/-- The output block a point of this case leaves: the mixed output of the tile's two products. -/
theorem out11_C : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay15 (k0_pay8 x0 x1) (k0_pay9 x0 x2) x9 x10 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz]

/-- The Hebbian accumulator a point of this case leaves. -/
theorem s0_C : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay16 (k0_pay7 x0) (k0_pay10 x0 x1 x2) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz]

/-- The forget total a point of this case leaves. -/
theorem s1_C : sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay1 (k0_pay11 x0 x1 x3 x4 x5) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz]

/-- The update total a point of this case leaves. -/
theorem s2_C : sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay2 (k0_pay14 x0 (k0_pay8 x0 x1) (k0_pay12 x7) (k0_pay13 x6) x8) xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz]

/-- The memory block the last point stores: from the memory block and the three accumulators just updated. -/
theorem out12_C : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay3 x2 (k0_pay1 (k0_pay11 x0 x1 x3 x4 x5) xs1) (k0_pay2 (k0_pay14 x0 (k0_pay8 x0 x1) (k0_pay12 x7) (k0_pay13 x6) x8) xs2) (k0_pay16 (k0_pay7 x0) (k0_pay10 x0 x1 x2) xs0) := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S1024x1024) hz, View.ld_unit_zero (S := S1x1024) hz, View.ld_unit_zero (S := S1x1) hz, View.readCov_unit_zero (S := S1x1) _ hz, View.readCov_unit_zero (S := S1024x1024) _ hz]

end CaseC

end Cert.KernelIdeal.Cell

end
-- ==== Proof.Spec.lean ====
/-
  The mathematics of the gated Hebbian memory cell, over the extended reals, with plain coordinates.

  For a batch x : 16384 × 1024, a slow projection W (read transposed), a memory M, three gate rows and three biases:
    v b h   = Σ_k x b k · W h k                       (the projection)
    y b d   = Σ_k x b k · M k d                       (the prediction)
    forget b, update b = σ(Σ_h v b h · w_v h + Σ_d x b d · w_x d + bias)
    mix b   = σ(Σ_h v b h · w h + bias)
    out b h = mix b · v b h + (1 − mix b) · y b h
    Δ h d   = Σ_b (v b h − y b h) · x b d
    M' h d  = (Σ_b forget b / n) · M h d + ((Σ_b update b / n) · p) · (Δ h d / n)
  with n the word of 16384 and p the word of one tenth, both kept as words (the same words on both sides).
  A sum over the 16384 rows is the sum over the 32 tiles of the sums over each tile's 512 rows, and a sum over
  2048 concatenated lanes is the sum of its two halves: the only two laws the bridge needs, both of a
  commutative monoid, so no finiteness is asked of the inputs.
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic

/-- The word of 16384.0, the batch size both programs divide by. -/
abbrev nB : EReal := Ideal.ofBits .f32 0x46800000#32
/-- The word of one tenth, the Hebbian rate. -/
abbrev rate : EReal := Ideal.ofBits .f32 0x3DCCCCCD#32
/-- The word of 1.0. -/
abbrev oneW : EReal := Ideal.ofBits .f32 0x3F800000#32

/-- Row `512·s + r` of the batch: row `r` of tile `s`. -/
abbrev row (s : Fin 32) (r : Fin 512) : Fin 16384 := ⟨512 * s.val + r.val, by have := s.isLt; have := r.isLt; omega⟩

/-- A product of the batch with a 1024 × 1024 matrix, at a row and a column. -/
def proj (x : Fin 16384 → Fin 1024 → EReal) (W : Fin 1024 → Fin 1024 → EReal) (b : Fin 16384) (h : Fin 1024) : EReal :=
  ∑ k : Fin 1024, x b k * W k h

/-- A gate over the projection and the input: the logistic of the two row sums and the bias. -/
def gate2 (x v : Fin 16384 → Fin 1024 → EReal) (wv wx : Fin 1024 → EReal) (bias : EReal) (b : Fin 16384) : EReal :=
  Ideal.logistic (((∑ h : Fin 1024, v b h * wv h) + (∑ d : Fin 1024, x b d * wx d)) + bias)

/-- The mixing gate over the projection alone. -/
def gate1 (v : Fin 16384 → Fin 1024 → EReal) (w : Fin 1024 → EReal) (bias : EReal) (b : Fin 16384) : EReal :=
  Ideal.logistic ((∑ h : Fin 1024, v b h * w h) + bias)

/-- The mixed output. -/
def outS (v y : Fin 16384 → Fin 1024 → EReal) (mix : Fin 16384 → EReal) (b : Fin 16384) (h : Fin 1024) : EReal :=
  mix b * v b h + (oneW - mix b) * y b h

/-- The Hebbian sum of outer products of the error with the input. -/
def delta (x v y : Fin 16384 → Fin 1024 → EReal) (h d : Fin 1024) : EReal :=
  ∑ b : Fin 16384, (v b h - y b h) * x b d

/-- The updated memory from the two gate totals and the Hebbian sum. -/
def newM (Fs Us : EReal) (M Δ : Fin 1024 → Fin 1024 → EReal) (h d : Fin 1024) : EReal :=
  Ideal.div Fs nB * M h d + (Ideal.div Us nB * rate) * Ideal.div (Δ h d) nB

/-- The 16384 rows are the 32 tiles of 512 rows. -/
def rowEquiv : Fin 32 × Fin 512 ≃ Fin 16384 where
  toFun p := row p.1 p.2
  invFun b := (⟨b.val / 512, by have := b.isLt; omega⟩, ⟨b.val % 512, Nat.mod_lt _ (by norm_num)⟩)
  left_inv p := by
    obtain ⟨s, r⟩ := p
    have hs := s.isLt; have hr := r.isLt
    apply Prod.ext <;> apply Fin.ext <;> dsimp only [row] <;> omega
  right_inv b := by
    apply Fin.ext; dsimp only [row]; omega

/-- A sum over the rows is the sum over the tiles of the sums over each tile's rows. -/
theorem sum_rows {β : Type*} [AddCommMonoid β] (f : Fin 16384 → β) :
    ∑ b : Fin 16384, f b = ∑ s : Fin 32, ∑ r : Fin 512, f (row s r) := by
  rw [← Equiv.sum_comp rowEquiv f, Fintype.sum_prod_type]
  rfl

/-- A sum over 2048 lanes is the sum over the first 1024 and the sum over the last 1024. -/
theorem sum_halves {β : Type*} [AddCommMonoid β] (f : Fin 2048 → β) :
    ∑ j : Fin 2048, f j = (∑ h : Fin 1024, f ⟨h.val, by have := h.isLt; omega⟩)
      + ∑ d : Fin 1024, f ⟨1024 + d.val, by have := d.isLt; omega⟩ := by
  have e := Fin.sum_univ_add (a := 1024) (b := 1024) (fun j : Fin (1024 + 1024) => f j)
  exact e

/-- A running total that starts at `z + a 0` and adds `a (n+1)` at each later point is `z` plus the sum so far. -/
theorem chain_eq {β : Type*} [AddCommMonoid β] (z : β) (a : Nat → β) (c : Nat → β)
    (h0 : c 0 = z + a 0) (hs : ∀ n, c (n + 1) = c n + a (n + 1)) :
    ∀ n, c n = z + ∑ s ∈ Finset.range (n + 1), a s
  | 0 => by rw [h0, Finset.sum_range_one]
  | n + 1 => by rw [hs, chain_eq z a c h0 hs n, Finset.sum_range_succ _ (n + 1), add_assoc]

/-! ## A total over the tiles, built one tile at a time -/

/-- After the first tile the partial total is the first tile's share. -/
theorem partial_zero {β : Type*} [AddCommMonoid β] (A : Fin 32 → β) :
    (∑ s : Fin 32, if s.val ≤ 0 then A s else 0) = A 0 := by
  rw [Finset.sum_eq_single (0 : Fin 32)]
  · simp
  · intro s _ hs
    have : ¬ s.val ≤ 0 := fun h => hs (Fin.ext (Nat.le_zero.mp h))
    rw [if_neg this]
  · intro h; exact absurd (Finset.mem_univ _) h

/-- One more tile adds that tile's share to the partial total. -/
theorem partial_succ {β : Type*} [AddCommMonoid β] (A : Fin 32 → β) (n : Nat) (hn : n + 1 < 32) :
    (∑ s : Fin 32, if s.val ≤ n + 1 then A s else 0) = (∑ s : Fin 32, if s.val ≤ n then A s else 0) + A ⟨n + 1, hn⟩ := by
  have e : ∀ s : Fin 32, (if s.val ≤ n + 1 then A s else 0) = (if s.val ≤ n then A s else 0) + (if s = ⟨n + 1, hn⟩ then A s else 0) := by
    intro s
    by_cases h1 : s.val ≤ n
    · have h2 : s ≠ ⟨n + 1, hn⟩ := fun h => by rw [h] at h1; simp at h1
      rw [if_pos h1, if_pos (Nat.le_succ_of_le h1), if_neg h2, add_zero]
    · by_cases h3 : s = ⟨n + 1, hn⟩
      · subst h3; simp
      · have h4 : ¬ s.val ≤ n + 1 := fun h => h3 (Fin.ext (by have := Nat.lt_of_not_le h1; simp; omega))
        rw [if_neg h1, if_neg h4, if_neg h3, add_zero]
  rw [Finset.sum_congr rfl (fun s _ => e s), Finset.sum_add_distrib, Finset.sum_ite_eq' Finset.univ ⟨n + 1, hn⟩ A]
  simp

/-- After the last tile the partial total is the total. -/
theorem partial_last {β : Type*} [AddCommMonoid β] (A : Fin 32 → β) :
    (∑ s : Fin 32, if s.val ≤ 31 then A s else 0) = ∑ s : Fin 32, A s :=
  Finset.sum_congr rfl fun s _ => if_pos (by have := s.isLt; omega)

/-! ## The two results as whole arrays of the nine argument arrays -/

open ValueIdx in
/-- An array of extended reals over two literal extents. -/
abbrev A2 (n0 n1 : Nat) : Type := (⟨2, ![n0, n1]⟩ : Shape).Idx → EReal
open ValueIdx in
/-- An array of extended reals over one literal extent. -/
abbrev A1 (n : Nat) : Type := (⟨1, ![n]⟩ : Shape).Idx → EReal

section Arrays

open ValueIdx

variable (x : A2 16384 1024) (vw mm : A2 1024 1024) (fgw : A2 1 2048) (fgb : A1 1) (ugw : A2 1 2048) (ugb : A1 1)
  (smw : A2 1 1024) (smb : A1 1)

/-- The batch by coordinates. -/
abbrev xc : Fin 16384 → Fin 1024 → EReal := fun b k => x (ix2 b k)
/-- The projection `v = x · Wᵀ`. -/
abbrev vc : Fin 16384 → Fin 1024 → EReal := proj (xc x) (fun k h => vw (ix2 h k))
/-- The prediction `y = x · M`. -/
abbrev yc : Fin 16384 → Fin 1024 → EReal := proj (xc x) (fun k d => mm (ix2 k d))
/-- A two-part gate row's first half, over the projection. -/
abbrev lo (w : A2 1 2048) : Fin 1024 → EReal := fun h => w (ix2 0 ⟨h.val, by have := h.isLt; omega⟩)
/-- and its second half, over the input. -/
abbrev hi (w : A2 1 2048) : Fin 1024 → EReal := fun d => w (ix2 0 ⟨1024 + d.val, by have := d.isLt; omega⟩)
/-- The forget gate per row. -/
abbrev forgetc : Fin 16384 → EReal := gate2 (xc x) (vc x vw) (lo fgw) (hi fgw) (fgb (ix1 0))
/-- The update gate per row. -/
abbrev updatec : Fin 16384 → EReal := gate2 (xc x) (vc x vw) (lo ugw) (hi ugw) (ugb (ix1 0))
/-- The mixing gate per row. -/
abbrev mixc : Fin 16384 → EReal := gate1 (vc x vw) (fun h => smw (ix2 0 h)) (smb (ix1 0))

/-- The first result: the mixed output. -/
def outG : A2 16384 1024 := fun i => outS (vc x vw) (yc x mm) (mixc x vw smw smb) (i 0) (i 1)

/-- The second result: the updated memory. -/
def newMG : A2 1024 1024 := fun i =>
  newM (∑ b : Fin 16384, forgetc x vw fgw fgb b) (∑ b : Fin 16384, updatec x vw ugw ugb b)
    (fun k d => mm (ix2 k d)) (delta (xc x) (vc x vw) (yc x mm)) (i 0) (i 1)

end Arrays

end Cert.Spec

end
-- ==== Proof.KPay.lean ====
/-
  The body's arithmetic read at an index, over the extended reals.

  Each payload of the kernel body is one pure term of the body's loads; here each is read at explicit
  coordinates: the two projections as sums over the contracted axis, the three gates as the logistic of
  row sums, the mixed output, the Hebbian tile product added to what the accumulator held, the gate
  totals added to what their accumulators held, and the final memory from the three accumulators.
-/
import proofs.«126891_j18769007084097_1_alg».proof.Proof.Gen.KernelIdeal.Skeleton
import proofs.«126891_j18769007084097_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Cell

open Cert.KernelIdeal Cert.KernelIdeal.Gen Idealize.ShloMosaic Idealize.ShloMosaic.ValueIdx

/-! ## Small lemmas: each operation that is not pointwise, read at explicit coordinates -/
/-! ### The row-by-column product: the record contracting axis 1 of the left operand with axis 0 of the right -/

private theorem lhsA_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
private theorem lhsA_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
private theorem rhsA_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
private theorem rhsA_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A product into a zero accumulator, at row `r` and column `h`: the sum over the contracted coordinate. -/
private theorem matmulA_apply (a : FVec Ideal S512x1024 .bf16) (b : FVec Ideal S1024x1024 .bf16) (r : Fin 512) (h : Fin 1024) :
    matmul dot_S512x1024_S1024x1024_S512x1024_1_0_0_1_n_n none a b (constant (F := Ideal) S512x1024 .f32 0x00000000#32) (ix2 r h)
      = ∑ k : Fin 1024, a (ix2 r k) * b (ix2 k h) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r h) ((contrEquiv1 dot_S512x1024_S1024x1024_S512x1024_1_0_0_1_n_n 1024 rfl rfl).symm k) = ix2 r k := funext fun c => Fin.ext (by
    match c with
    | ⟨0, _⟩ => exact lhsA_0 _ _
    | ⟨1, _⟩ => exact (lhsA_1 _ _).trans hk)
  have er : dot_S512x1024_S1024x1024_S512x1024_1_0_0_1_n_n.rhsIdx (ix2 r h) ((contrEquiv1 dot_S512x1024_S1024x1024_S512x1024_1_0_0_1_n_n 1024 rfl rfl).symm k) = ix2 k h := funext fun c => Fin.ext (by
    match c with
    | ⟨0, _⟩ => exact (rhsA_0 _ _).trans hk
    | ⟨1, _⟩ => exact rhsA_1 _ _)
  rw [el, er]

/-! ### The transposed-left product: the record contracting axis 0 of both operands -/

private theorem lhsB_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
private theorem lhsB_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
private theorem rhsB_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
private theorem rhsB_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- The transposed-left product into a zero accumulator, at `(h, d)`: the sum over the tile's rows. -/
private theorem matmulB_apply (a b : FVec Ideal S512x1024 .bf16) (h d : Fin 1024) :
    matmul dot_S512x1024_S512x1024_S1024x1024_0_0_1_1_n_n none a b (constant (F := Ideal) S1024x1024 .f32 0x00000000#32) (ix2 h d)
      = ∑ r : Fin 512, a (ix2 r h) * b (ix2 r d) := by
  simp only [matmul]
  rw [Ideal.matmul_constant_zero_apply, ← Equiv.sum_comp (contrEquiv1 dot_S512x1024_S512x1024_S1024x1024_0_0_1_1_n_n 512 rfl rfl).symm]
  refine Finset.sum_congr rfl fun k _ => ?_
  have hk := contrEquiv1_symm_val dot_S512x1024_S512x1024_S1024x1024_0_0_1_1_n_n 512 rfl rfl k
  have el : dot_S512x1024_S512x1024_S1024x1024_0_0_1_1_n_n.lhsIdx (ix2 h d) ((contrEquiv1 dot_S512x1024_S512x1024_S1024x1024_0_0_1_1_n_n 512 rfl rfl).symm k) = ix2 k h := funext fun c => Fin.ext (by
    match c with
    | ⟨0, _⟩ => exact (lhsB_0 _ _).trans hk
    | ⟨1, _⟩ => exact lhsB_1 _ _)
  have er : dot_S512x1024_S512x1024_S1024x1024_0_0_1_1_n_n.rhsIdx (ix2 h d) ((contrEquiv1 dot_S512x1024_S512x1024_S1024x1024_0_0_1_1_n_n 512 rfl rfl).symm k) = ix2 k d := funext fun c => Fin.ext (by
    match c with
    | ⟨0, _⟩ => exact (rhsB_0 _ _).trans hk
    | ⟨1, _⟩ => exact rhsB_1 _ _)
  rw [el, er]

/-! ### Indices of unit shapes, and the column sums -/

/-- The one index of a `[1, 1]` array. -/
private theorem idx11 (i : S1x1.Idx) : i = ix2 (0 : Fin 1) (0 : Fin 1) := by
  funext c
  match c with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)

/-- A `[512, 1]` column summed over its rows. -/
private theorem colSum_apply (v : FVec Ideal S512x1 .f32) (h : S512x1.Reduces [0] S1) (hφ : FKind.Formats .f32)
    (hacc : (0x00000000#32 : BitVec 32) = 0x00000000#32) (u : Fin 1) :
    multiReduction (F := Ideal) .add [0] S1 v 0x00000000#32 h hφ hacc (ix1 u) = ∑ r : Fin 512, v (ix2 r (0 : Fin 1)) := by
  refine (Ideal.multiReduction_add_single v 0x00000000#32 h hφ hacc (ix1 u)).trans ?_
  refine Finset.sum_congr rfl fun r _ => congrArg v (funext fun c => ?_)
  match c with
  | ⟨0, _⟩ => rfl
  | ⟨1, _⟩ => exact Fin.ext (by show u.val = 0; omega)

/-! ### Row sums and the column forms that keep the summed axis as a unit axis -/

/-- The logistic of a vector, at an index. -/
private theorem logistic_apply {s : Shape} {φ : FTy} (a : FVec Ideal s φ) (i : s.Idx) : logistic a i = Ideal.logistic (a i) := rfl

/-- A `[512, 1024]` tile summed along each row. -/
private theorem rowSum_apply (v : FVec Ideal S512x1024 .f32) (h : S512x1024.Reduces [1] S512) (hφ : FKind.Formats .f32)
    (hacc : (0x00000000#32 : BitVec 32) = 0x00000000#32) (r : Fin 512) :
    multiReduction (F := Ideal) .add [1] S512 v 0x00000000#32 h hφ hacc (ix1 r) = ∑ k : Fin 1024, v (ix2 r k) := by
  refine (Ideal.multiReduction_add_single v 0x00000000#32 h hφ hacc (ix1 r)).trans ?_
  refine Finset.sum_congr rfl fun k _ => congrArg v (funext fun c => ?_)
  match c with
  | ⟨0, _⟩ => rfl
  | ⟨1, _⟩ => rfl

/-- An `[a]` array cast to `[a, 1]` reads, at `(i, u)`, the operand at `i`, whatever the unit coordinate `u`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row sum kept as a `[512, 1]` column. -/
private theorem rowSumCol_apply (v : FVec Ideal S512x1024 .f32) (h : S512x1024.Reduces [1] S512) (hφ : FKind.Formats .f32)
    (hacc : (0x00000000#32 : BitVec 32) = 0x00000000#32) (hc : S512.ShapeCasts S512x1) (r : Fin 512) (u : Fin 1) :
    shapeCast S512x1 (multiReduction (F := Ideal) .add [1] S512 v 0x00000000#32 h hφ hacc) hc (ix2 r u) = ∑ k : Fin 1024, v (ix2 r k) :=
  (shapeCast_a_a1_apply _ hc r u).trans (rowSum_apply v h hφ hacc r)

/-- The sum along row `r` of a tile times a broadcast row. -/
private theorem rowDot_apply (v : FVec Ideal S512x1024 .f32) (w : FVec Ideal S1x1024 .f32) (hb : S1x1024.Broadcasts S512x1024)
    (h : S512x1024.Reduces [1] S512) (hφ : FKind.Formats .f32) (hacc : (0x00000000#32 : BitVec 32) = 0x00000000#32)
    (hc : S512.ShapeCasts S512x1) (r : Fin 512) (u : Fin 1) :
    shapeCast S512x1 (multiReduction (F := Ideal) .add [1] S512 (mulf v (broadcastTo S512x1024 w hb)) 0x00000000#32 h hφ hacc) hc (ix2 r u)
      = ∑ k : Fin 1024, v (ix2 r k) * w (ix2 (0 : Fin 1) k) := by
  refine (rowSumCol_apply _ h hφ hacc hc r u).trans (Finset.sum_congr rfl fun k _ => ?_)
  rw [mulf_apply, broadcastTo_1b_ab_apply]

/-- A `[1, 1]` array broadcast to `[1024, 1024]` reads its one element everywhere. -/
private theorem bcast11_sq_apply {α : Type} (v : S1x1.Idx → α) (h : S1x1.Broadcasts S1024x1024) (p q : Fin 1024) :
    broadcastTo S1024x1024 v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-! ## The payloads -/

/-- The input tile in bf16 is the tile (a change of format is the identity). -/
theorem pay7_apply (x0 : Vec Ideal S512x1024 .f32) (i : S512x1024.Idx) : k0_pay7 (F := Ideal) x0 i = x0 i := rfl

/-- The projection tile: row `r` of the tile against column `h` of the transposed weights. -/
theorem pay8_apply (x0 : Vec Ideal S512x1024 .f32) (x1 : Vec Ideal S1024x1024 .f32) (r : Fin 512) (h : Fin 1024) :
    k0_pay8 (F := Ideal) x0 x1 (ix2 r h) = ∑ k : Fin 1024, x0 (ix2 r k) * x1 (ix2 k h) := by
  unfold k0_pay8 k0_pay7
  rw [matmulA_apply]
  refine Finset.sum_congr rfl fun k _ => ?_
  rw [truncf_apply, truncf_apply, shapeCast_self]

/-- The prediction tile: row `r` of the tile against column `d` of the memory. -/
theorem pay9_apply (x0 : Vec Ideal S512x1024 .f32) (x2 : Vec Ideal S1024x1024 .f32) (r : Fin 512) (d : Fin 1024) :
    k0_pay9 (F := Ideal) x0 x2 (ix2 r d) = ∑ k : Fin 1024, x0 (ix2 r k) * x2 (ix2 k d) := by
  unfold k0_pay9 k0_pay7
  rw [matmulA_apply]
  refine Finset.sum_congr rfl fun k _ => ?_
  rw [truncf_apply, truncf_apply]

/-- The error tile is the difference of the two. -/
theorem pay10_apply (x0 : Vec Ideal S512x1024 .f32) (x1 x2 : Vec Ideal S1024x1024 .f32) (i : S512x1024.Idx) :
    k0_pay10 (F := Ideal) x0 x1 x2 i = k0_pay8 (F := Ideal) x0 x1 i - k0_pay9 (F := Ideal) x0 x2 i := rfl

/-- The forget gate of row `r`. -/
theorem pay11_apply (x0 : Vec Ideal S512x1024 .f32) (x1 : Vec Ideal S1024x1024 .f32) (x3 x4 : Vec Ideal S1x1024 .f32)
    (x5 : Vec Ideal S1x1 .f32) (r : Fin 512) :
    k0_pay11 (F := Ideal) x0 x1 x3 x4 x5 (ix2 r 0)
      = Ideal.logistic (((∑ h : Fin 1024, k0_pay8 (F := Ideal) x0 x1 (ix2 r h) * x3 (ix2 0 h))
          + (∑ d : Fin 1024, x0 (ix2 r d) * x4 (ix2 0 d))) + x5 (ix2 0 0)) := by
  unfold k0_pay11
  rw [logistic_apply, addf_apply, addf_apply, rowDot_apply, rowDot_apply, broadcastTo_1b_ab_apply, shapeCast_self, shapeCast_self, shapeCast_self]

/-- The update gate of row `r` (its two rows arrive through a cast and a broadcast of the loads). -/
theorem pay14_apply (x0 : Vec Ideal S512x1024 .f32) (v10 : FVec Ideal S512x1024 .f32) (x7 x6 : Vec Ideal S1x1024 .f32)
    (x8 : Vec Ideal S1x1 .f32) (r : Fin 512) :
    k0_pay14 (F := Ideal) x0 v10 (k0_pay12 (F := Ideal) x7) (k0_pay13 (F := Ideal) x6) x8 (ix2 r 0)
      = Ideal.logistic (((∑ h : Fin 1024, v10 (ix2 r h) * x6 (ix2 0 h))
          + (∑ d : Fin 1024, x0 (ix2 r d) * x7 (ix2 0 d))) + x8 (ix2 0 0)) := by
  unfold k0_pay14 k0_pay13 k0_pay12
  rw [logistic_apply, addf_apply, addf_apply, rowDot_apply, rowDot_apply, broadcastTo_1b_ab_apply, shapeCast_self, shapeCast_self, shapeCast_self]

/-- The mixed output of row `r`, column `h`. -/
theorem pay15_apply (v10 v11 : FVec Ideal S512x1024 .f32) (x9 : Vec Ideal S1x1024 .f32) (x10 : Vec Ideal S1x1 .f32)
    (r : Fin 512) (h : Fin 1024) :
    k0_pay15 (F := Ideal) v10 v11 x9 x10 (ix2 r h)
      = Ideal.logistic ((∑ k : Fin 1024, v10 (ix2 r k) * x9 (ix2 0 k)) + x10 (ix2 0 0)) * v10 (ix2 r h)
        + (Cert.Spec.oneW - Ideal.logistic ((∑ k : Fin 1024, v10 (ix2 r k) * x9 (ix2 0 k)) + x10 (ix2 0 0))) * v11 (ix2 r h) := by
  unfold k0_pay15
  rw [addf_apply, mulf_apply, mulf_apply, broadcastTo_a1_ab_apply, broadcastTo_a1_ab_apply, subf_apply, broadcast_apply,
    logistic_apply, addf_apply, rowDot_apply, broadcastTo_1b_ab_apply, shapeCast_self]
  rfl

/-- The Hebbian accumulator after a point: what it held plus the tile's sum of outer products. -/
theorem pay16_apply (v4 : FVec Ideal S512x1024 .bf16) (v12 : FVec Ideal S512x1024 .f32) (acc : Vec Ideal S1024x1024 .f32)
    (h d : Fin 1024) :
    k0_pay16 (F := Ideal) v4 v12 acc (ix2 h d) = acc (ix2 h d) + ∑ r : Fin 512, v12 (ix2 r h) * v4 (ix2 r d) := by
  unfold k0_pay16
  rw [shapeCast_self, addf_apply, matmulB_apply]
  refine congrArg (acc (ix2 h d) + ·) (Finset.sum_congr rfl fun r _ => ?_)
  rw [truncf_apply]

/-- A gate total after a point: what it held plus the tile's sum of the gate. -/
theorem pay1_apply (v30 : FVec Ideal S512x1 .f32) (acc : Vec Ideal S1x1 .f32) (i : S1x1.Idx) :
    k0_pay1 (F := Ideal) v30 acc i = acc (ix2 0 0) + ∑ r : Fin 512, v30 (ix2 r 0) := by
  have hi := idx11 i
  subst hi
  unfold k0_pay1
  rw [shapeCast_self, addf_apply]
  refine congrArg (acc (ix2 0 0) + ·) ?_
  refine (shapeCast_a_1a_apply _ _ (0 : Fin 1) (0 : Fin 1)).trans ?_
  exact colSum_apply v30 _ _ _ 0

theorem pay2_apply (v48 : FVec Ideal S512x1 .f32) (acc : Vec Ideal S1x1 .f32) (i : S1x1.Idx) :
    k0_pay2 (F := Ideal) v48 acc i = acc (ix2 0 0) + ∑ r : Fin 512, v48 (ix2 r 0) := by
  have hi := idx11 i
  subst hi
  unfold k0_pay2
  rw [shapeCast_self, addf_apply]
  refine congrArg (acc (ix2 0 0) + ·) ?_
  refine (shapeCast_a_1a_apply _ _ (0 : Fin 1) (0 : Fin 1)).trans ?_
  exact colSum_apply v48 _ _ _ 0

/-- The final memory from the memory block and the three accumulators. -/
theorem pay3_apply (v8 : Vec Ideal S1024x1024 .f32) (v91 v94 : Vec Ideal S1x1 .f32) (v97 : Vec Ideal S1024x1024 .f32)
    (h d : Fin 1024) :
    k0_pay3 (F := Ideal) v8 v91 v94 v97 (ix2 h d)
      = Ideal.div (v91 (ix2 0 0)) Cert.Spec.nB * v8 (ix2 h d)
        + (Ideal.div (v94 (ix2 0 0)) Cert.Spec.nB * Cert.Spec.rate) * Ideal.div (v97 (ix2 h d)) Cert.Spec.nB := by
  unfold k0_pay3
  rw [addf_apply, mulf_apply, mulf_apply, bcast11_sq_apply, bcast11_sq_apply, divf_apply, mulf_apply, divf_apply, divf_apply]
  rfl

/-- The three resets store zero. -/
theorem pay4_apply (i : S1024x1024.Idx) : k0_pay4 (F := Ideal) i = 0 := by
  unfold k0_pay4
  rw [shapeCast_self]
  exact Ideal.ofBits_zero_f32
theorem pay5_apply (i : S1x1.Idx) : k0_pay5 (F := Ideal) i = 0 := by
  unfold k0_pay5
  rw [shapeCast_self]
  exact Ideal.ofBits_zero_f32
theorem pay6_apply (i : S1x1.Idx) : k0_pay6 (F := Ideal) i = 0 := by
  unfold k0_pay6
  rw [shapeCast_self]
  exact Ideal.ofBits_zero_f32

end Cert.KernelIdeal.Cell

end
-- ==== Proof.KBlocks.lean ====
/-
  The input blocks of a grid point, read at coordinates of the argument arrays.

  The batch window's block at point `t` is rows `512·t … 512·t + 511` of the batch. Every other input window
  holds its whole array at every point: the transposed weights (so its entry (k, h) is the weights' (h, k)), the
  memory, the two halves of each two-part gate row (slices of the row at lanes 0 and 1024), the mixing row, and
  the three biases reshaped to one entry.
-/
import proofs.«126891_j18769007084097_1_alg».proof.Proof.Gen.KernelIdeal.Frame
import proofs.«126891_j18769007084097_1_alg».proof.Proof.Spec
import Idealize.ShloMosaic.Lib.Pipeline.Value
import Idealize.ShloMosaic.Lib.ValueIdx
import Idealize.ShloMosaic.Lib.StableHlo.Run

noncomputable section

namespace Cert.KernelIdeal.Cell

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The nine argument arrays of core `c`, as launched. -/
abbrev a0 (c : Dev nD) : Cert.Spec.A2 16384 1024 := m ((c : Thread nD τ).loc main_arg0)
abbrev a1 (c : Dev nD) : Cert.Spec.A2 1024 1024 := m ((c : Thread nD τ).loc main_arg1)
abbrev a2 (c : Dev nD) : Cert.Spec.A2 1024 1024 := m ((c : Thread nD τ).loc main_arg2)
abbrev a3 (c : Dev nD) : Cert.Spec.A2 1 2048 := m ((c : Thread nD τ).loc main_arg3)
abbrev a4 (c : Dev nD) : Cert.Spec.A1 1 := m ((c : Thread nD τ).loc main_arg4)
abbrev a5 (c : Dev nD) : Cert.Spec.A2 1 2048 := m ((c : Thread nD τ).loc main_arg5)
abbrev a6 (c : Dev nD) : Cert.Spec.A1 1 := m ((c : Thread nD τ).loc main_arg6)
abbrev a7 (c : Dev nD) : Cert.Spec.A2 1 1024 := m ((c : Thread nD τ).loc main_arg7)
abbrev a8 (c : Dev nD) : Cert.Spec.A1 1 := m ((c : Thread nD τ).loc main_arg8)

/-- The eleven input blocks of grid point `t`, at their literal types. -/
abbrev B0 (c : Dev nD) (t : Fin cfg0.N) : Vec Ideal S512x1024 .f32 := iblk m c 0 t
abbrev B1 (c : Dev nD) (t : Fin cfg0.N) : Vec Ideal S1024x1024 .f32 := iblk m c 1 t
abbrev B2 (c : Dev nD) (t : Fin cfg0.N) : Vec Ideal S1024x1024 .f32 := iblk m c 2 t
abbrev B3 (c : Dev nD) (t : Fin cfg0.N) : Vec Ideal S1x1024 .f32 := iblk m c 3 t
abbrev B4 (c : Dev nD) (t : Fin cfg0.N) : Vec Ideal S1x1024 .f32 := iblk m c 4 t
abbrev B5 (c : Dev nD) (t : Fin cfg0.N) : Vec Ideal S1x1 .f32 := iblk m c 5 t
abbrev B6 (c : Dev nD) (t : Fin cfg0.N) : Vec Ideal S1x1024 .f32 := iblk m c 6 t
abbrev B7 (c : Dev nD) (t : Fin cfg0.N) : Vec Ideal S1x1024 .f32 := iblk m c 7 t
abbrev B8 (c : Dev nD) (t : Fin cfg0.N) : Vec Ideal S1x1 .f32 := iblk m c 8 t
abbrev B9 (c : Dev nD) (t : Fin cfg0.N) : Vec Ideal S1x1024 .f32 := iblk m c 9 t
abbrev B10 (c : Dev nD) (t : Fin cfg0.N) : Vec Ideal S1x1 .f32 := iblk m c 10 t

/-- A grid point as a tile number. -/
abbrev tile (t : Fin cfg0.N) : Fin 32 := ⟨t.val, lt_of_lt_of_eq t.isLt N_0⟩

/-- The batch window's block index is the point; every other input window's is zero. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem xblk_apply (c : Dev nD) (t : Fin cfg0.N) (r : Fin 512) (k : Fin 1024) :
    B0 m c t (ix2 r k) = a0 m c (ix2 (Cert.Spec.row (tile t) r) k) := by
  show iblk m c 0 t (ix2 r k) = _
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t (0 : Fin 2) * 512 + 1 * r.val = 512 * t.val + r.val; rw [(idx0 t).1]; omega
  | ⟨1, _⟩ => show win0_0.index t (1 : Fin 2) * 1024 + 1 * k.val = k.val; rw [(idx0 t).2]; omega

/-! ## The windows that hold a whole array -/

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 1's block at any point is its whole array. -/
theorem blk1_eq (c : Dev nD) (t : Fin cfg0.N) : B1 m c t = V m c main_v0 := by
  funext j
  show iblk m c 1 t j = _
  unfold iblk
  rw [View.read_apply]
  show V m c main_v0 _ = V m c main_v0 j
  congr 1
  funext a
  apply Fin.ext
  match a with
  | ⟨0, _⟩ => show win0_1.index t (0 : Fin 2) * 1024 + 1 * (j 0).val = (j 0).val; rw [(idx1 t).1]; omega
  | ⟨1, _⟩ => show win0_1.index t (1 : Fin 2) * 1024 + 1 * (j 1).val = (j 1).val; rw [(idx1 t).2]; omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 2's block at any point is its whole array. -/
theorem blk2_eq (c : Dev nD) (t : Fin cfg0.N) : B2 m c t = V m c main_arg2 := by
  funext j
  show iblk m c 2 t j = _
  unfold iblk
  rw [View.read_apply]
  show V m c main_arg2 _ = V m c main_arg2 j
  congr 1
  funext a
  apply Fin.ext
  match a with
  | ⟨0, _⟩ => show win0_2.index t (0 : Fin 2) * 1024 + 1 * (j 0).val = (j 0).val; rw [(idx2 t).1]; omega
  | ⟨1, _⟩ => show win0_2.index t (1 : Fin 2) * 1024 + 1 * (j 1).val = (j 1).val; rw [(idx2 t).2]; omega

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 3's block at any point is its whole array. -/
theorem blk3_eq (c : Dev nD) (t : Fin cfg0.N) : B3 m c t = V m c main_v1 := by
  funext j
  show iblk m c 3 t j = _
  unfold iblk
  rw [View.read_apply]
  show V m c main_v1 _ = V m c main_v1 j
  congr 1
  funext a
  apply Fin.ext
  match a with
  | ⟨0, _⟩ => show win0_3.index t (0 : Fin 2) * 1 + 1 * (j 0).val = (j 0).val; rw [(idx3 t).1]; omega
  | ⟨1, _⟩ => show win0_3.index t (1 : Fin 2) * 1024 + 1 * (j 1).val = (j 1).val; rw [(idx3 t).2]; omega

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4's block at any point is its whole array. -/
theorem blk4_eq (c : Dev nD) (t : Fin cfg0.N) : B4 m c t = V m c main_v2 := by
  funext j
  show iblk m c 4 t j = _
  unfold iblk
  rw [View.read_apply]
  show V m c main_v2 _ = V m c main_v2 j
  congr 1
  funext a
  apply Fin.ext
  match a with
  | ⟨0, _⟩ => show win0_4.index t (0 : Fin 2) * 1 + 1 * (j 0).val = (j 0).val; rw [(idx4 t).1]; omega
  | ⟨1, _⟩ => show win0_4.index t (1 : Fin 2) * 1024 + 1 * (j 1).val = (j 1).val; rw [(idx4 t).2]; omega

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5's block at any point is its whole array. -/
theorem blk5_eq (c : Dev nD) (t : Fin cfg0.N) : B5 m c t = V m c main_v5 := by
  funext j
  show iblk m c 5 t j = _
  unfold iblk
  rw [View.read_apply]
  show V m c main_v5 _ = V m c main_v5 j
  congr 1
  funext a
  apply Fin.ext
  match a with
  | ⟨0, _⟩ => show win0_5.index t (0 : Fin 2) * 1 + 1 * (j 0).val = (j 0).val; rw [(idx5 t).1]; omega
  | ⟨1, _⟩ => show win0_5.index t (1 : Fin 2) * 1 + 1 * (j 1).val = (j 1).val; rw [(idx5 t).2]; omega

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6's block at any point is its whole array. -/
theorem blk6_eq (c : Dev nD) (t : Fin cfg0.N) : B6 m c t = V m c main_v3 := by
  funext j
  show iblk m c 6 t j = _
  unfold iblk
  rw [View.read_apply]
  show V m c main_v3 _ = V m c main_v3 j
  congr 1
  funext a
  apply Fin.ext
  match a with
  | ⟨0, _⟩ => show win0_6.index t (0 : Fin 2) * 1 + 1 * (j 0).val = (j 0).val; rw [(idx6 t).1]; omega
  | ⟨1, _⟩ => show win0_6.index t (1 : Fin 2) * 1024 + 1 * (j 1).val = (j 1).val; rw [(idx6 t).2]; omega

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 7's block at any point is its whole array. -/
theorem blk7_eq (c : Dev nD) (t : Fin cfg0.N) : B7 m c t = V m c main_v4 := by
  funext j
  show iblk m c 7 t j = _
  unfold iblk
  rw [View.read_apply]
  show V m c main_v4 _ = V m c main_v4 j
  congr 1
  funext a
  apply Fin.ext
  match a with
  | ⟨0, _⟩ => show win0_7.index t (0 : Fin 2) * 1 + 1 * (j 0).val = (j 0).val; rw [(idx7 t).1]; omega
  | ⟨1, _⟩ => show win0_7.index t (1 : Fin 2) * 1024 + 1 * (j 1).val = (j 1).val; rw [(idx7 t).2]; omega

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 8's block at any point is its whole array. -/
theorem blk8_eq (c : Dev nD) (t : Fin cfg0.N) : B8 m c t = V m c main_v6 := by
  funext j
  show iblk m c 8 t j = _
  unfold iblk
  rw [View.read_apply]
  show V m c main_v6 _ = V m c main_v6 j
  congr 1
  funext a
  apply Fin.ext
  match a with
  | ⟨0, _⟩ => show win0_8.index t (0 : Fin 2) * 1 + 1 * (j 0).val = (j 0).val; rw [(idx8 t).1]; omega
  | ⟨1, _⟩ => show win0_8.index t (1 : Fin 2) * 1 + 1 * (j 1).val = (j 1).val; rw [(idx8 t).2]; omega

theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 9's block at any point is its whole array. -/
theorem blk9_eq (c : Dev nD) (t : Fin cfg0.N) : B9 m c t = V m c main_arg7 := by
  funext j
  show iblk m c 9 t j = _
  unfold iblk
  rw [View.read_apply]
  show V m c main_arg7 _ = V m c main_arg7 j
  congr 1
  funext a
  apply Fin.ext
  match a with
  | ⟨0, _⟩ => show win0_9.index t (0 : Fin 2) * 1 + 1 * (j 0).val = (j 0).val; rw [(idx9 t).1]; omega
  | ⟨1, _⟩ => show win0_9.index t (1 : Fin 2) * 1024 + 1 * (j 1).val = (j 1).val; rw [(idx9 t).2]; omega

theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Window 10's block at any point is its whole array. -/
theorem blk10_eq (c : Dev nD) (t : Fin cfg0.N) : B10 m c t = V m c main_v7 := by
  funext j
  show iblk m c 10 t j = _
  unfold iblk
  rw [View.read_apply]
  show V m c main_v7 _ = V m c main_v7 j
  congr 1
  funext a
  apply Fin.ext
  match a with
  | ⟨0, _⟩ => show win0_10.index t (0 : Fin 2) * 1 + 1 * (j 0).val = (j 0).val; rw [(idx10 t).1]; omega
  | ⟨1, _⟩ => show win0_10.index t (1 : Fin 2) * 1 + 1 * (j 1).val = (j 1).val; rw [(idx10 t).2]; omega

/-! ## What the host wrote into those arrays before the region -/

theorem V_v0 (c : Dev nD) : (V m c main_v0 : S1024x1024.Idx → EReal)
    = transpose S1024x1024 [1, 0] (m ((c : Thread nD τ).loc main_arg1)) transposes_S1024x1024_S1024x1024_1_0 := by
  dsimp only [Gen.V, Gen.hostOps0]; after_results
theorem V_v1 (c : Dev nD) : (V m c main_v1 : S1x1024.Idx → EReal)
    = extractStridedSlice S1x1024 ![0, 0] (m ((c : Thread nD τ).loc main_arg3)) slices_S1x2048_S1x1024_0_0 := by
  dsimp only [Gen.V, Gen.hostOps0]; after_results
theorem V_v2 (c : Dev nD) : (V m c main_v2 : S1x1024.Idx → EReal)
    = extractStridedSlice S1x1024 ![0, 1024] (m ((c : Thread nD τ).loc main_arg3)) slices_S1x2048_S1x1024_0_1024 := by
  dsimp only [Gen.V, Gen.hostOps0]; after_results
theorem V_v3 (c : Dev nD) : (V m c main_v3 : S1x1024.Idx → EReal)
    = extractStridedSlice S1x1024 ![0, 0] (m ((c : Thread nD τ).loc main_arg5)) slices_S1x2048_S1x1024_0_0 := by
  dsimp only [Gen.V, Gen.hostOps0]; after_results
theorem V_v4 (c : Dev nD) : (V m c main_v4 : S1x1024.Idx → EReal)
    = extractStridedSlice S1x1024 ![0, 1024] (m ((c : Thread nD τ).loc main_arg5)) slices_S1x2048_S1x1024_0_1024 := by
  dsimp only [Gen.V, Gen.hostOps0]; after_results
theorem V_v5 (c : Dev nD) : (V m c main_v5 : S1x1.Idx → EReal)
    = shapeCast S1x1 (m ((c : Thread nD τ).loc main_arg4)) shapeCasts_S1_S1x1 := by
  dsimp only [Gen.V, Gen.hostOps0]; after_results; rfl
theorem V_v6 (c : Dev nD) : (V m c main_v6 : S1x1.Idx → EReal)
    = shapeCast S1x1 (m ((c : Thread nD τ).loc main_arg6)) shapeCasts_S1_S1x1 := by
  dsimp only [Gen.V, Gen.hostOps0]; after_results; rfl
theorem V_v7 (c : Dev nD) : (V m c main_v7 : S1x1.Idx → EReal)
    = shapeCast S1x1 (m ((c : Thread nD τ).loc main_arg8)) shapeCasts_S1_S1x1 := by
  dsimp only [Gen.V, Gen.hostOps0]; after_results; rfl

/-! ## The blocks at coordinates of the arguments -/

/-- The transposed weights: entry (k, h) is the weights' (h, k). -/
theorem blk1_apply (c : Dev nD) (t : Fin cfg0.N) (k h : Fin 1024) :
    B1 m c t (ix2 k h) = a1 m c (ix2 h k) := by
  rw [blk1_eq, V_v0]
  exact transpose_apply _ _ _ _ _ (fun b => match b with | ⟨0, _⟩ => rfl | ⟨1, _⟩ => rfl)

/-- The memory. -/
theorem blk2_apply (c : Dev nD) (t : Fin cfg0.N) (k d : Fin 1024) :
    B2 m c t (ix2 k d) = a2 m c (ix2 k d) := by
  rw [blk2_eq, V_main_arg2]

/-- The forget row's first half. -/
theorem blk3_apply (c : Dev nD) (t : Fin cfg0.N) (h : Fin 1024) :
    B3 m c t (ix2 0 h) = Cert.Spec.lo (a3 m c) h := by
  rw [blk3_eq, V_v1]
  exact extractStridedSlice_apply _ _ _ _ _ (fun a => match a with | ⟨0, _⟩ => rfl | ⟨1, _⟩ => by show h.val = 0 + h.val; omega)

/-- The forget row's second half. -/
theorem blk4_apply (c : Dev nD) (t : Fin cfg0.N) (d : Fin 1024) :
    B4 m c t (ix2 0 d) = Cert.Spec.hi (a3 m c) d := by
  rw [blk4_eq, V_v2]
  exact extractStridedSlice_apply _ _ _ _ _ (fun a => match a with | ⟨0, _⟩ => rfl | ⟨1, _⟩ => rfl)

/-- The forget bias. -/
theorem blk5_apply (c : Dev nD) (t : Fin cfg0.N) :
    B5 m c t (ix2 0 0) = a4 m c (ix1 0) := by
  rw [blk5_eq, V_v5]
  exact shapeCast_apply _ _ _ _ rfl

/-- The update row's first half. -/
theorem blk6_apply (c : Dev nD) (t : Fin cfg0.N) (h : Fin 1024) :
    B6 m c t (ix2 0 h) = Cert.Spec.lo (a5 m c) h := by
  rw [blk6_eq, V_v3]
  exact extractStridedSlice_apply _ _ _ _ _ (fun a => match a with | ⟨0, _⟩ => rfl | ⟨1, _⟩ => by show h.val = 0 + h.val; omega)

/-- The update row's second half. -/
theorem blk7_apply (c : Dev nD) (t : Fin cfg0.N) (d : Fin 1024) :
    B7 m c t (ix2 0 d) = Cert.Spec.hi (a5 m c) d := by
  rw [blk7_eq, V_v4]
  exact extractStridedSlice_apply _ _ _ _ _ (fun a => match a with | ⟨0, _⟩ => rfl | ⟨1, _⟩ => rfl)

/-- The update bias. -/
theorem blk8_apply (c : Dev nD) (t : Fin cfg0.N) :
    B8 m c t (ix2 0 0) = a6 m c (ix1 0) := by
  rw [blk8_eq, V_v6]
  exact shapeCast_apply _ _ _ _ rfl

/-- The mixing row. -/
theorem blk9_apply (c : Dev nD) (t : Fin cfg0.N) (h : Fin 1024) :
    B9 m c t (ix2 0 h) = a7 m c (ix2 0 h) := by
  rw [blk9_eq, V_main_arg7]

/-- The mixing bias. -/
theorem blk10_apply (c : Dev nD) (t : Fin cfg0.N) :
    B10 m c t (ix2 0 0) = a8 m c (ix1 0) := by
  rw [blk10_eq, V_v7]
  exact shapeCast_apply _ _ _ _ rfl

end Cert.KernelIdeal.Cell

end
-- ==== Proof.KTile.lean ====
/-
  One grid point's arithmetic in coordinates of the argument arrays.

  With the point's blocks read as rows `512·t + r` of the batch and as the whole weight arrays, the tile's
  projection and prediction are the specification's at those rows, its three gates the specification's gates of
  those rows, its output block the specification's output at those rows, and what it adds to the three
  accumulators the tile's share of the Hebbian sum and of the two gate totals.
-/
import proofs.«126891_j18769007084097_1_alg».proof.Proof.KPay
import proofs.«126891_j18769007084097_1_alg».proof.Proof.KBlocks

noncomputable section

namespace Cert.KernelIdeal.Cell

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The tile's share of the Hebbian sum at (h, d). -/
abbrev dTile (c : Dev nD) (s : Fin 32) (h d : Fin 1024) : EReal :=
  ∑ r : Fin 512, (Cert.Spec.vc (a0 m c) (a1 m c) (Cert.Spec.row s r) h - Cert.Spec.yc (a0 m c) (a2 m c) (Cert.Spec.row s r) h)
    * Cert.Spec.xc (a0 m c) (Cert.Spec.row s r) d
/-- The tile's share of the forget total. -/
abbrev fTile (c : Dev nD) (s : Fin 32) : EReal :=
  ∑ r : Fin 512, Cert.Spec.forgetc (a0 m c) (a1 m c) (a3 m c) (a4 m c) (Cert.Spec.row s r)
/-- The tile's share of the update total. -/
abbrev uTile (c : Dev nD) (s : Fin 32) : EReal :=
  ∑ r : Fin 512, Cert.Spec.updatec (a0 m c) (a1 m c) (a5 m c) (a6 m c) (Cert.Spec.row s r)

theorem tile_v (c : Dev nD) (t : Fin cfg0.N) (r : Fin 512) (h : Fin 1024) :
    k0_pay8 (F := Ideal) (B0 m c t) (B1 m c t) (ix2 r h) = Cert.Spec.vc (a0 m c) (a1 m c) (Cert.Spec.row (tile t) r) h := by
  refine (pay8_apply (B0 m c t) (B1 m c t) r h).trans ?_
  show _ = ∑ k : Fin 1024, a0 m c (ix2 (Cert.Spec.row (tile t) r) k) * a1 m c (ix2 h k)
  exact Finset.sum_congr rfl fun k _ => by rw [xblk_apply, blk1_apply]

theorem tile_y (c : Dev nD) (t : Fin cfg0.N) (r : Fin 512) (d : Fin 1024) :
    k0_pay9 (F := Ideal) (B0 m c t) (B2 m c t) (ix2 r d) = Cert.Spec.yc (a0 m c) (a2 m c) (Cert.Spec.row (tile t) r) d := by
  refine (pay9_apply (B0 m c t) (B2 m c t) r d).trans ?_
  show _ = ∑ k : Fin 1024, a0 m c (ix2 (Cert.Spec.row (tile t) r) k) * a2 m c (ix2 k d)
  exact Finset.sum_congr rfl fun k _ => by rw [xblk_apply, blk2_apply]

theorem tile_forget (c : Dev nD) (t : Fin cfg0.N) (r : Fin 512) :
    k0_pay11 (F := Ideal) (B0 m c t) (B1 m c t) (B3 m c t) (B4 m c t) (B5 m c t) (ix2 r 0)
      = Cert.Spec.forgetc (a0 m c) (a1 m c) (a3 m c) (a4 m c) (Cert.Spec.row (tile t) r) := by
  refine (pay11_apply (B0 m c t) (B1 m c t) (B3 m c t) (B4 m c t) (B5 m c t) r).trans ?_
  have e1 : (∑ h : Fin 1024, k0_pay8 (F := Ideal) (B0 m c t) (B1 m c t) (ix2 r h) * B3 m c t (ix2 0 h))
      = ∑ h : Fin 1024, Cert.Spec.vc (a0 m c) (a1 m c) (Cert.Spec.row (tile t) r) h * Cert.Spec.lo (a3 m c) h :=
    Finset.sum_congr rfl fun h _ => by rw [tile_v, blk3_apply]
  have e2 : (∑ d : Fin 1024, B0 m c t (ix2 r d) * B4 m c t (ix2 0 d))
      = ∑ d : Fin 1024, a0 m c (ix2 (Cert.Spec.row (tile t) r) d) * Cert.Spec.hi (a3 m c) d :=
    Finset.sum_congr rfl fun d _ => by rw [xblk_apply, blk4_apply]
  rw [e1, e2, blk5_apply]
  rfl

theorem tile_update (c : Dev nD) (t : Fin cfg0.N) (r : Fin 512) :
    k0_pay14 (F := Ideal) (B0 m c t) (k0_pay8 (F := Ideal) (B0 m c t) (B1 m c t)) (k0_pay12 (F := Ideal) (B7 m c t))
        (k0_pay13 (F := Ideal) (B6 m c t)) (B8 m c t) (ix2 r 0)
      = Cert.Spec.updatec (a0 m c) (a1 m c) (a5 m c) (a6 m c) (Cert.Spec.row (tile t) r) := by
  refine (pay14_apply (B0 m c t) (k0_pay8 (F := Ideal) (B0 m c t) (B1 m c t)) (B7 m c t) (B6 m c t) (B8 m c t) r).trans ?_
  have e1 : (∑ h : Fin 1024, k0_pay8 (F := Ideal) (B0 m c t) (B1 m c t) (ix2 r h) * B6 m c t (ix2 0 h))
      = ∑ h : Fin 1024, Cert.Spec.vc (a0 m c) (a1 m c) (Cert.Spec.row (tile t) r) h * Cert.Spec.lo (a5 m c) h :=
    Finset.sum_congr rfl fun h _ => by rw [tile_v, blk6_apply]
  have e2 : (∑ d : Fin 1024, B0 m c t (ix2 r d) * B7 m c t (ix2 0 d))
      = ∑ d : Fin 1024, a0 m c (ix2 (Cert.Spec.row (tile t) r) d) * Cert.Spec.hi (a5 m c) d :=
    Finset.sum_congr rfl fun d _ => by rw [xblk_apply, blk7_apply]
  rw [e1, e2, blk8_apply]
  rfl

theorem tile_out (c : Dev nD) (t : Fin cfg0.N) (r : Fin 512) (h : Fin 1024) :
    k0_pay15 (F := Ideal) (k0_pay8 (F := Ideal) (B0 m c t) (B1 m c t)) (k0_pay9 (F := Ideal) (B0 m c t) (B2 m c t)) (B9 m c t) (B10 m c t) (ix2 r h)
      = Cert.Spec.outG (a0 m c) (a1 m c) (a2 m c) (a7 m c) (a8 m c) (ix2 (Cert.Spec.row (tile t) r) h) := by
  refine (pay15_apply (k0_pay8 (F := Ideal) (B0 m c t) (B1 m c t)) (k0_pay9 (F := Ideal) (B0 m c t) (B2 m c t)) (B9 m c t) (B10 m c t) r h).trans ?_
  have hmix : Ideal.logistic ((∑ k : Fin 1024, k0_pay8 (F := Ideal) (B0 m c t) (B1 m c t) (ix2 r k) * B9 m c t (ix2 0 k)) + B10 m c t (ix2 0 0))
      = Cert.Spec.mixc (a0 m c) (a1 m c) (a7 m c) (a8 m c) (Cert.Spec.row (tile t) r) := by
    have e1 : (∑ k : Fin 1024, k0_pay8 (F := Ideal) (B0 m c t) (B1 m c t) (ix2 r k) * B9 m c t (ix2 0 k))
        = ∑ k : Fin 1024, Cert.Spec.vc (a0 m c) (a1 m c) (Cert.Spec.row (tile t) r) k * a7 m c (ix2 0 k) :=
      Finset.sum_congr rfl fun k _ => by rw [tile_v, blk9_apply]
    rw [e1, blk10_apply]
    rfl
  rw [hmix, tile_v, tile_y]
  rfl

theorem tile_delta (c : Dev nD) (t : Fin cfg0.N) (acc : Vec Ideal S1024x1024 .f32) (h d : Fin 1024) :
    k0_pay16 (F := Ideal) (k0_pay7 (F := Ideal) (B0 m c t)) (k0_pay10 (F := Ideal) (B0 m c t) (B1 m c t) (B2 m c t)) acc (ix2 h d)
      = acc (ix2 h d) + dTile m c (tile t) h d := by
  refine (pay16_apply (k0_pay7 (F := Ideal) (B0 m c t)) (k0_pay10 (F := Ideal) (B0 m c t) (B1 m c t) (B2 m c t)) acc h d).trans ?_
  refine congrArg (acc (ix2 h d) + ·) ?_
  exact Finset.sum_congr rfl fun r _ => by rw [pay10_apply, pay7_apply, tile_v, tile_y, xblk_apply]

theorem tile_fsum (c : Dev nD) (t : Fin cfg0.N) (acc : Vec Ideal S1x1 .f32) (i : S1x1.Idx) :
    k0_pay1 (F := Ideal) (k0_pay11 (F := Ideal) (B0 m c t) (B1 m c t) (B3 m c t) (B4 m c t) (B5 m c t)) acc i
      = acc (ix2 0 0) + fTile m c (tile t) := by
  refine (pay1_apply (k0_pay11 (F := Ideal) (B0 m c t) (B1 m c t) (B3 m c t) (B4 m c t) (B5 m c t)) acc i).trans ?_
  refine congrArg (acc (ix2 0 0) + ·) ?_
  exact Finset.sum_congr rfl fun r _ => tile_forget m c t r

theorem tile_usum (c : Dev nD) (t : Fin cfg0.N) (acc : Vec Ideal S1x1 .f32) (i : S1x1.Idx) :
    k0_pay2 (F := Ideal) (k0_pay14 (F := Ideal) (B0 m c t) (k0_pay8 (F := Ideal) (B0 m c t) (B1 m c t)) (k0_pay12 (F := Ideal) (B7 m c t))
        (k0_pay13 (F := Ideal) (B6 m c t)) (B8 m c t)) acc i
      = acc (ix2 0 0) + uTile m c (tile t) := by
  refine (pay2_apply (k0_pay14 (F := Ideal) (B0 m c t) (k0_pay8 (F := Ideal) (B0 m c t) (B1 m c t)) (k0_pay12 (F := Ideal) (B7 m c t))
        (k0_pay13 (F := Ideal) (B6 m c t)) (B8 m c t)) acc i).trans ?_
  refine congrArg (acc (ix2 0 0) + ·) ?_
  exact Finset.sum_congr rfl fun r _ => tile_update m c t r

end Cert.KernelIdeal.Cell

end
-- ==== Proof.KInduct.lean ====
/-
  What the buffers hold after each grid point, by induction on the point.

  Every point leaves the specification's output rows in the output block. The three accumulators hold, after
  point `n`, the sum of the shares of tiles `0 … n`: zero plus the first tile's share after the first point,
  one more share after each later point. After the last point they hold the totals over all 16384 rows, and the
  memory block stored there is the specification's updated memory.
-/
import proofs.«126891_j18769007084097_1_alg».proof.Proof.KPieces
import proofs.«126891_j18769007084097_1_alg».proof.Proof.KTile

set_option maxRecDepth 16384

noncomputable section

namespace Cert.KernelIdeal.Cell

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- What the point before `t` left in the three accumulators. -/
abbrev P0 (c : Dev nD) (t : Fin cfg0.N) : Vec Ideal S1024x1024 .f32 := (outsAt0 m c (t.val - 1) (Nat.lt_of_le_of_lt (Nat.sub_le _ _) t.isLt)).2.2.1
abbrev P1 (c : Dev nD) (t : Fin cfg0.N) : Vec Ideal S1x1 .f32 := (outsAt0 m c (t.val - 1) (Nat.lt_of_le_of_lt (Nat.sub_le _ _) t.isLt)).2.2.2.1
abbrev P2 (c : Dev nD) (t : Fin cfg0.N) : Vec Ideal S1x1 .f32 := (outsAt0 m c (t.val - 1) (Nat.lt_of_le_of_lt (Nat.sub_le _ _) t.isLt)).2.2.2.2

/-! ## Each case's contents, at a point of the case -/

theorem out11_at_A (c : Dev nD) (t : Fin cfg0.N) (h0 : t.val % 32 = 0) (h1 : ¬t.val % 32 = 31) :
    (outsAt0 m c t.val t.isLt).1 = k0_pay15 (F := Ideal) (k0_pay8 (F := Ideal) (B0 m c t) (B1 m c t)) (k0_pay9 (F := Ideal) (B0 m c t) (B2 m c t)) (B9 m c t) (B10 m c t) := by
  rw [outsAt0_A m c t h0 h1]; dsimp only
  exact out11_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem acc0_at_A (c : Dev nD) (t : Fin cfg0.N) (h0 : t.val % 32 = 0) (h1 : ¬t.val % 32 = 31) :
    (outsAt0 m c t.val t.isLt).2.2.1 = k0_pay16 (F := Ideal) (k0_pay7 (F := Ideal) (B0 m c t)) (k0_pay10 (F := Ideal) (B0 m c t) (B1 m c t) (B2 m c t)) (k0_pay4 (F := Ideal)) := by
  rw [outsAt0_A m c t h0 h1]; dsimp only
  exact s0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem acc1_at_A (c : Dev nD) (t : Fin cfg0.N) (h0 : t.val % 32 = 0) (h1 : ¬t.val % 32 = 31) :
    (outsAt0 m c t.val t.isLt).2.2.2.1 = k0_pay1 (F := Ideal) (k0_pay11 (F := Ideal) (B0 m c t) (B1 m c t) (B3 m c t) (B4 m c t) (B5 m c t)) (k0_pay5 (F := Ideal)) := by
  rw [outsAt0_A m c t h0 h1]; dsimp only
  exact s1_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem acc2_at_A (c : Dev nD) (t : Fin cfg0.N) (h0 : t.val % 32 = 0) (h1 : ¬t.val % 32 = 31) :
    (outsAt0 m c t.val t.isLt).2.2.2.2 = k0_pay2 (F := Ideal) (k0_pay14 (F := Ideal) (B0 m c t) (k0_pay8 (F := Ideal) (B0 m c t) (B1 m c t)) (k0_pay12 (F := Ideal) (B7 m c t)) (k0_pay13 (F := Ideal) (B6 m c t)) (B8 m c t)) (k0_pay6 (F := Ideal)) := by
  rw [outsAt0_A m c t h0 h1]; dsimp only
  exact s2_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem out11_at_B (c : Dev nD) (t : Fin cfg0.N) (h0 : ¬t.val % 32 = 0) (h1 : ¬t.val % 32 = 31) :
    (outsAt0 m c t.val t.isLt).1 = k0_pay15 (F := Ideal) (k0_pay8 (F := Ideal) (B0 m c t) (B1 m c t)) (k0_pay9 (F := Ideal) (B0 m c t) (B2 m c t)) (B9 m c t) (B10 m c t) := by
  rw [outsAt0_B m c t h0 h1]; dsimp only
  exact out11_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem acc0_at_B (c : Dev nD) (t : Fin cfg0.N) (h0 : ¬t.val % 32 = 0) (h1 : ¬t.val % 32 = 31) :
    (outsAt0 m c t.val t.isLt).2.2.1 = k0_pay16 (F := Ideal) (k0_pay7 (F := Ideal) (B0 m c t)) (k0_pay10 (F := Ideal) (B0 m c t) (B1 m c t) (B2 m c t)) (P0 m c t) := by
  rw [outsAt0_B m c t h0 h1]; dsimp only
  exact s0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem acc1_at_B (c : Dev nD) (t : Fin cfg0.N) (h0 : ¬t.val % 32 = 0) (h1 : ¬t.val % 32 = 31) :
    (outsAt0 m c t.val t.isLt).2.2.2.1 = k0_pay1 (F := Ideal) (k0_pay11 (F := Ideal) (B0 m c t) (B1 m c t) (B3 m c t) (B4 m c t) (B5 m c t)) (P1 m c t) := by
  rw [outsAt0_B m c t h0 h1]; dsimp only
  exact s1_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem acc2_at_B (c : Dev nD) (t : Fin cfg0.N) (h0 : ¬t.val % 32 = 0) (h1 : ¬t.val % 32 = 31) :
    (outsAt0 m c t.val t.isLt).2.2.2.2 = k0_pay2 (F := Ideal) (k0_pay14 (F := Ideal) (B0 m c t) (k0_pay8 (F := Ideal) (B0 m c t) (B1 m c t)) (k0_pay12 (F := Ideal) (B7 m c t)) (k0_pay13 (F := Ideal) (B6 m c t)) (B8 m c t)) (P2 m c t) := by
  rw [outsAt0_B m c t h0 h1]; dsimp only
  exact s2_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem out11_at_C (c : Dev nD) (t : Fin cfg0.N) (h0 : ¬t.val % 32 = 0) (h1 : t.val % 32 = 31) :
    (outsAt0 m c t.val t.isLt).1 = k0_pay15 (F := Ideal) (k0_pay8 (F := Ideal) (B0 m c t) (B1 m c t)) (k0_pay9 (F := Ideal) (B0 m c t) (B2 m c t)) (B9 m c t) (B10 m c t) := by
  rw [outsAt0_C m c t h0 h1]; dsimp only
  exact out11_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem acc0_at_C (c : Dev nD) (t : Fin cfg0.N) (h0 : ¬t.val % 32 = 0) (h1 : t.val % 32 = 31) :
    (outsAt0 m c t.val t.isLt).2.2.1 = k0_pay16 (F := Ideal) (k0_pay7 (F := Ideal) (B0 m c t)) (k0_pay10 (F := Ideal) (B0 m c t) (B1 m c t) (B2 m c t)) (P0 m c t) := by
  rw [outsAt0_C m c t h0 h1]; dsimp only
  exact s0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem acc1_at_C (c : Dev nD) (t : Fin cfg0.N) (h0 : ¬t.val % 32 = 0) (h1 : t.val % 32 = 31) :
    (outsAt0 m c t.val t.isLt).2.2.2.1 = k0_pay1 (F := Ideal) (k0_pay11 (F := Ideal) (B0 m c t) (B1 m c t) (B3 m c t) (B4 m c t) (B5 m c t)) (P1 m c t) := by
  rw [outsAt0_C m c t h0 h1]; dsimp only
  exact s1_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem acc2_at_C (c : Dev nD) (t : Fin cfg0.N) (h0 : ¬t.val % 32 = 0) (h1 : t.val % 32 = 31) :
    (outsAt0 m c t.val t.isLt).2.2.2.2 = k0_pay2 (F := Ideal) (k0_pay14 (F := Ideal) (B0 m c t) (k0_pay8 (F := Ideal) (B0 m c t) (B1 m c t)) (k0_pay12 (F := Ideal) (B7 m c t)) (k0_pay13 (F := Ideal) (B6 m c t)) (B8 m c t)) (P2 m c t) := by
  rw [outsAt0_C m c t h0 h1]; dsimp only
  exact s2_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem out12_at_C (c : Dev nD) (t : Fin cfg0.N) (h0 : ¬t.val % 32 = 0) (h1 : t.val % 32 = 31) :
    (outsAt0 m c t.val t.isLt).2.1 = k0_pay3 (F := Ideal) (B2 m c t) (k0_pay1 (F := Ideal) (k0_pay11 (F := Ideal) (B0 m c t) (B1 m c t) (B3 m c t) (B4 m c t) (B5 m c t)) (P1 m c t)) (k0_pay2 (F := Ideal) (k0_pay14 (F := Ideal) (B0 m c t) (k0_pay8 (F := Ideal) (B0 m c t) (B1 m c t)) (k0_pay12 (F := Ideal) (B7 m c t)) (k0_pay13 (F := Ideal) (B6 m c t)) (B8 m c t)) (P2 m c t)) (k0_pay16 (F := Ideal) (k0_pay7 (F := Ideal) (B0 m c t)) (k0_pay10 (F := Ideal) (B0 m c t) (B1 m c t) (B2 m c t)) (P0 m c t)) := by
  rw [outsAt0_C m c t h0 h1]; dsimp only
  exact out12_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-! ## Every point -/

/-- Every point leaves the tile's mixed output in the output block. -/
theorem out11_at (c : Dev nD) (t : Fin cfg0.N) : (outsAt0 m c t.val t.isLt).1 = k0_pay15 (F := Ideal) (k0_pay8 (F := Ideal) (B0 m c t) (B1 m c t)) (k0_pay9 (F := Ideal) (B0 m c t) (B2 m c t)) (B9 m c t) (B10 m c t) := by
  by_cases h0 : t.val % 32 = 0
  · exact out11_at_A m c t h0 (by omega)
  · by_cases h1 : t.val % 32 = 31
    · exact out11_at_C m c t h0 h1
    · exact out11_at_B m c t h0 h1

theorem acc0_step (c : Dev nD) (t : Fin cfg0.N) (h0 : ¬t.val % 32 = 0) :
    (outsAt0 m c t.val t.isLt).2.2.1 = k0_pay16 (F := Ideal) (k0_pay7 (F := Ideal) (B0 m c t)) (k0_pay10 (F := Ideal) (B0 m c t) (B1 m c t) (B2 m c t)) (P0 m c t) := by
  by_cases h1 : t.val % 32 = 31
  · exact acc0_at_C m c t h0 h1
  · exact acc0_at_B m c t h0 h1

theorem acc1_step (c : Dev nD) (t : Fin cfg0.N) (h0 : ¬t.val % 32 = 0) :
    (outsAt0 m c t.val t.isLt).2.2.2.1 = k0_pay1 (F := Ideal) (k0_pay11 (F := Ideal) (B0 m c t) (B1 m c t) (B3 m c t) (B4 m c t) (B5 m c t)) (P1 m c t) := by
  by_cases h1 : t.val % 32 = 31
  · exact acc1_at_C m c t h0 h1
  · exact acc1_at_B m c t h0 h1

theorem acc2_step (c : Dev nD) (t : Fin cfg0.N) (h0 : ¬t.val % 32 = 0) :
    (outsAt0 m c t.val t.isLt).2.2.2.2 = k0_pay2 (F := Ideal) (k0_pay14 (F := Ideal) (B0 m c t) (k0_pay8 (F := Ideal) (B0 m c t) (B1 m c t)) (k0_pay12 (F := Ideal) (B7 m c t)) (k0_pay13 (F := Ideal) (B6 m c t)) (B8 m c t)) (P2 m c t) := by
  by_cases h1 : t.val % 32 = 31
  · exact acc2_at_C m c t h0 h1
  · exact acc2_at_B m c t h0 h1

/-! ## The accumulators after point `n`: the shares of tiles `0 … n` -/

theorem inv0 (c : Dev nD) : ∀ (n : ℕ) (hn : n < cfg0.N) (h d : Fin 1024),
    (outsAt0 m c n hn).2.2.1 (ix2 h d) = ∑ s : Fin 32, if s.val ≤ n then dTile m c s h d else 0
  | 0, hn, h, d => by
    have e := acc0_at_A m c ⟨0, hn⟩ rfl (by show ¬ (0 : ℕ) % 32 = 31; decide)
    refine (congrFun e (ix2 h d)).trans ?_
    rw [tile_delta, pay4_apply, zero_add, Cert.Spec.partial_zero]
    exact congrArg (fun s => dTile m c s h d) (Fin.ext rfl)
  | n + 1, hn, h, d => by
    have hN : n + 1 < 32 := lt_of_lt_of_eq hn N_0
    have e := acc0_step m c ⟨n + 1, hn⟩ (by dsimp only; omega)
    refine (congrFun e (ix2 h d)).trans ?_
    rw [tile_delta]
    show (outsAt0 m c n _).2.2.1 (ix2 h d) + _ = _
    rw [inv0 c n _ h d, Cert.Spec.partial_succ _ n hN]

theorem inv1 (c : Dev nD) : ∀ (n : ℕ) (hn : n < cfg0.N),
    (outsAt0 m c n hn).2.2.2.1 (ix2 0 0) = ∑ s : Fin 32, if s.val ≤ n then fTile m c s else 0
  | 0, hn => by
    have e := acc1_at_A m c ⟨0, hn⟩ rfl (by show ¬ (0 : ℕ) % 32 = 31; decide)
    refine (congrFun e (ix2 0 0)).trans ?_
    rw [tile_fsum, pay5_apply, zero_add, Cert.Spec.partial_zero]
    exact congrArg (fun s => fTile m c s) (Fin.ext rfl)
  | n + 1, hn => by
    have hN : n + 1 < 32 := lt_of_lt_of_eq hn N_0
    have e := acc1_step m c ⟨n + 1, hn⟩ (by dsimp only; omega)
    refine (congrFun e (ix2 0 0)).trans ?_
    rw [tile_fsum]
    show (outsAt0 m c n _).2.2.2.1 (ix2 0 0) + _ = _
    rw [inv1 c n _, Cert.Spec.partial_succ _ n hN]

theorem inv2 (c : Dev nD) : ∀ (n : ℕ) (hn : n < cfg0.N),
    (outsAt0 m c n hn).2.2.2.2 (ix2 0 0) = ∑ s : Fin 32, if s.val ≤ n then uTile m c s else 0
  | 0, hn => by
    have e := acc2_at_A m c ⟨0, hn⟩ rfl (by show ¬ (0 : ℕ) % 32 = 31; decide)
    refine (congrFun e (ix2 0 0)).trans ?_
    rw [tile_usum, pay6_apply, zero_add, Cert.Spec.partial_zero]
    exact congrArg (fun s => uTile m c s) (Fin.ext rfl)
  | n + 1, hn => by
    have hN : n + 1 < 32 := lt_of_lt_of_eq hn N_0
    have e := acc2_step m c ⟨n + 1, hn⟩ (by dsimp only; omega)
    refine (congrFun e (ix2 0 0)).trans ?_
    rw [tile_usum]
    show (outsAt0 m c n _).2.2.2.2 (ix2 0 0) + _ = _
    rw [inv2 c n _, Cert.Spec.partial_succ _ n hN]

/-! ## After the last point -/

theorem last_lt : 31 < cfg0.N := by rw [show cfg0.N = 32 from N_0]; decide
/-- The last grid point. -/
abbrev tLast : Fin cfg0.N := ⟨31, last_lt⟩

end Cert.KernelIdeal.Cell

end
-- ==== Proof.KLast.lean ====
/-
  The memory block stored at the last grid point.

  The last point stores, from the memory block and the three accumulators it has just updated, the forget mean
  times the memory plus the update mean times the rate times the Hebbian mean: with the accumulators at their
  totals over all rows this is the specification's updated memory.
-/
import proofs.«126891_j18769007084097_1_alg».proof.Proof.KInduct

set_option maxRecDepth 16384

noncomputable section

namespace Cert.KernelIdeal.Cell

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem last_h0 : ¬tLast.val % 32 = 0 := by show ¬ (31 : ℕ) % 32 = 0; decide
theorem last_h1 : tLast.val % 32 = 31 := rfl

/-- The specification's updated memory from the three totals, at (h, d). -/
theorem newMG_apply (c : Dev nD) (h d : Fin 1024) :
    Cert.Spec.newMG (a0 m c) (a1 m c) (a2 m c) (a3 m c) (a4 m c) (a5 m c) (a6 m c) (ix2 h d)
      = Ideal.div (∑ b : Fin 16384, Cert.Spec.forgetc (a0 m c) (a1 m c) (a3 m c) (a4 m c) b) Cert.Spec.nB * a2 m c (ix2 h d)
        + (Ideal.div (∑ b : Fin 16384, Cert.Spec.updatec (a0 m c) (a1 m c) (a5 m c) (a6 m c) b) Cert.Spec.nB * Cert.Spec.rate)
          * Ideal.div (Cert.Spec.delta (Cert.Spec.xc (a0 m c)) (Cert.Spec.vc (a0 m c) (a1 m c)) (Cert.Spec.yc (a0 m c) (a2 m c)) h d) Cert.Spec.nB := by
  unfold Cert.Spec.newMG Cert.Spec.newM
  rfl

/-- The three accumulators after the last point, at their totals over all rows. -/
theorem last0 (c : Dev nD) (h d : Fin 1024) :
    (outsAt0 m c tLast.val tLast.isLt).2.2.1 (ix2 h d)
      = Cert.Spec.delta (Cert.Spec.xc (a0 m c)) (Cert.Spec.vc (a0 m c) (a1 m c)) (Cert.Spec.yc (a0 m c) (a2 m c)) h d := by
  rw [inv0 m c tLast.val tLast.isLt h d]
  show (∑ s : Fin 32, if s.val ≤ 31 then dTile m c s h d else 0) = _
  rw [Cert.Spec.partial_last]
  unfold Cert.Spec.delta
  rw [Cert.Spec.sum_rows]

theorem last1 (c : Dev nD) :
    (outsAt0 m c tLast.val tLast.isLt).2.2.2.1 (ix2 0 0) = ∑ b : Fin 16384, Cert.Spec.forgetc (a0 m c) (a1 m c) (a3 m c) (a4 m c) b := by
  rw [inv1 m c tLast.val tLast.isLt]
  show (∑ s : Fin 32, if s.val ≤ 31 then fTile m c s else 0) = _
  rw [Cert.Spec.partial_last, Cert.Spec.sum_rows]

theorem last2 (c : Dev nD) :
    (outsAt0 m c tLast.val tLast.isLt).2.2.2.2 (ix2 0 0) = ∑ b : Fin 16384, Cert.Spec.updatec (a0 m c) (a1 m c) (a5 m c) (a6 m c) b := by
  rw [inv2 m c tLast.val tLast.isLt]
  show (∑ s : Fin 32, if s.val ≤ 31 then uTile m c s else 0) = _
  rw [Cert.Spec.partial_last, Cert.Spec.sum_rows]

/-- The memory block the last point stores is the specification's updated memory. -/
theorem out12_last (c : Dev nD) (h d : Fin 1024) :
    (outsAt0 m c tLast.val tLast.isLt).2.1 (ix2 h d)
      = Cert.Spec.newMG (a0 m c) (a1 m c) (a2 m c) (a3 m c) (a4 m c) (a5 m c) (a6 m c) (ix2 h d) := by
  have e := congrFun (out12_at_C m c tLast last_h0 last_h1) (ix2 h d)
  have e1 := congrFun (acc1_at_C m c tLast last_h0 last_h1) (ix2 0 0)
  have e2 := congrFun (acc2_at_C m c tLast last_h0 last_h1) (ix2 0 0)
  have e0 := congrFun (acc0_at_C m c tLast last_h0 last_h1) (ix2 h d)
  refine e.trans ?_
  refine (pay3_apply (B2 m c tLast) (k0_pay1 (F := Ideal) (k0_pay11 (F := Ideal) (B0 m c tLast) (B1 m c tLast) (B3 m c tLast) (B4 m c tLast) (B5 m c tLast)) (P1 m c tLast)) (k0_pay2 (F := Ideal) (k0_pay14 (F := Ideal) (B0 m c tLast) (k0_pay8 (F := Ideal) (B0 m c tLast) (B1 m c tLast)) (k0_pay12 (F := Ideal) (B7 m c tLast)) (k0_pay13 (F := Ideal) (B6 m c tLast)) (B8 m c tLast)) (P2 m c tLast)) (k0_pay16 (F := Ideal) (k0_pay7 (F := Ideal) (B0 m c tLast)) (k0_pay10 (F := Ideal) (B0 m c tLast) (B1 m c tLast) (B2 m c tLast)) (P0 m c tLast)) h d).trans ?_
  rw [newMG_apply, ← e1, ← e2, ← e0, last0, last1, last2, blk2_apply]

end Cert.KernelIdeal.Cell

end
-- ==== Proof.KFinal.lean ====
/-
  The two result arrays after the run.

  Output block `t` covers rows `512·t … 512·t + 511` of the first result, and every point writes its block
  back: the 32 blocks tile the array, which therefore ends at the specification's mixed output. The second
  result's one block is the whole array and is written back after the last point only, when it holds the
  specification's updated memory.
-/
import proofs.«126891_j18769007084097_1_alg».proof.Proof.KLast
import proofs.«126891_j18769007084097_1_alg».proof.Proof.Gen.KernelIdeal.Value

set_option maxRecDepth 16384

noncomputable section

namespace Cert.KernelIdeal.Cell

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The first result of core `c`: the specification's mixed output of its arguments. -/
abbrev outArr (c : Dev nD) : Buf (Elt Ideal) ((c : Thread nD τ).loc main_v8_0) :=
  Cert.Spec.outG (a0 m c) (a1 m c) (a2 m c) (a7 m c) (a8 m c)
/-- The second result of core `c`: the specification's updated memory of its arguments. -/
abbrev memArr (c : Dev nD) : Buf (Elt Ideal) ((c : Thread nD τ).loc main_v8_1) :=
  Cert.Spec.newMG (a0 m c) (a1 m c) (a2 m c) (a3 m c) (a4 m c) (a5 m c) (a6 m c)

/-- The output window's block index is the point; the memory window's is zero. -/
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-- What point `t` writes back to the first result is block `t` of the specification's output. -/
theorem flushed11_eq (c : Dev nD) (t : Fin cfg0.N) :
    (dats m 0 c).flushed 11 t = ((cfg0.win 11).blk t).view.read (Elt Ideal) (outArr m c) := by
  rw [Cert.KernelIdeal.Value.flushed11, out11_at]
  funext j
  have hj0 : (j 0).val < 512 := (j 0).isLt
  have hj1 : (j 1).val < 1024 := (j 1).isLt
  have hx : (cfg0.win 11).xinj (grid0.coords t) j = ix2 (⟨(j 0).val, hj0⟩ : Fin 512) (⟨(j 1).val, hj1⟩ : Fin 1024) :=
    funext fun a => Fin.ext (by match a with | ⟨0, _⟩ => rfl | ⟨1, _⟩ => rfl)
  show k0_pay15 (F := Ideal) (k0_pay8 (F := Ideal) (B0 m c t) (B1 m c t)) (k0_pay9 (F := Ideal) (B0 m c t) (B2 m c t)) (B9 m c t) (B10 m c t) ((cfg0.win 11).xinj (grid0.coords t) j) = outArr m c (((cfg0.win 11).blk t).view.emb j)
  rw [hx, tile_out]
  congr 1
  funext a
  apply Fin.ext
  match a with
  | ⟨0, _⟩ => show 512 * t.val + (j 0).val = win0_11.index t (0 : Fin 2) * 512 + 1 * (j 0).val; rw [(idx11 t).1]; omega
  | ⟨1, _⟩ => show (j 1).val = win0_11.index t (1 : Fin 2) * 1024 + 1 * (j 1).val; rw [(idx11 t).2]; omega

/-- An index of the first result is in point `t`'s block iff each coordinate is in the block's range. -/
theorem mem_blk11 (t : Fin cfg0.N) (i : S16384x1024.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole main_v8_0).slice (win0_11.rect t)).set ↔ _
  rw [View.set_slice_whole, Rect.mem_set_unit]
  exact Iff.rfl

/-- Every row of the first result is in the block of the point `row / 512`. -/
theorem cover11 (i : S16384x1024.Idx) :
    ∃ t : Fin cfg0.N, (cfg0.win 11).flush t = true ∧ i ∈ ((cfg0.win 11).blk t).view.set := by
  have hi0 : (i 0).val < 16384 := (i 0).isLt
  have hi1 : (i 1).val < 1024 := (i 1).isLt
  have hN : cfg0.N = 32 := N_0
  refine ⟨⟨(i 0).val / 512, by rw [hN]; omega⟩, flush0_11 _, ?_⟩
  rw [mem_blk11]
  intro a
  match a with
  | ⟨0, _⟩ =>
    show win0_11.index _ (0 : Fin 2) * 512 ≤ (i 0).val ∧ (i 0).val < win0_11.index _ (0 : Fin 2) * 512 + 512
    rw [(idx11 _).1]; dsimp only; omega
  | ⟨1, _⟩ =>
    show win0_11.index _ (1 : Fin 2) * 1024 ≤ (i 1).val ∧ (i 1).val < win0_11.index _ (1 : Fin 2) * 1024 + 1024
    rw [(idx11 _).2]; omega

/-- The first result after the run. -/
theorem final11 (c : Dev nD) : (dats m 0 c).arrAt 11 cfg0.N = outArr m c :=
  (dats m 0 c).arrAt_eq_of_cover 11 (outArr m c) (fun t _ => flushed11_eq m c t) cover11

/-- The one write-back of the second result, after the last point, writes the specification's updated memory. -/
theorem flushed12_eq (c : Dev nD) (t : Fin cfg0.N) (hf : (cfg0.win 12).flush t = true) :
    (dats m 0 c).flushed 12 t = ((cfg0.win 12).blk t).view.read (Elt Ideal) (memArr m c) := by
  have h31 : t.val = 31 := by have := (flush0_12 t).mp hf; have := lt_of_lt_of_eq t.isLt N_0; omega
  obtain rfl : t = tLast := Fin.ext h31
  rw [Cert.KernelIdeal.Value.flushed12]
  funext j
  have hj0 : (j 0).val < 1024 := (j 0).isLt
  have hj1 : (j 1).val < 1024 := (j 1).isLt
  have hx : (cfg0.win 12).xinj (grid0.coords tLast) j = ix2 (⟨(j 0).val, hj0⟩ : Fin 1024) (⟨(j 1).val, hj1⟩ : Fin 1024) :=
    funext fun a => Fin.ext (by match a with | ⟨0, _⟩ => rfl | ⟨1, _⟩ => rfl)
  show (outsAt0 m c tLast.val tLast.isLt).2.1 ((cfg0.win 12).xinj (grid0.coords tLast) j) = memArr m c (((cfg0.win 12).blk tLast).view.emb j)
  rw [hx, out12_last]
  congr 1
  funext a
  apply Fin.ext
  match a with
  | ⟨0, _⟩ => show (j 0).val = win0_12.index tLast (0 : Fin 2) * 1024 + 1 * (j 0).val; rw [(idx12 tLast).1]; omega
  | ⟨1, _⟩ => show (j 1).val = win0_12.index tLast (1 : Fin 2) * 1024 + 1 * (j 1).val; rw [(idx12 tLast).2]; omega

theorem mem_blk12 (t : Fin cfg0.N) (i : S1024x1024.Idx) :
    i ∈ ((cfg0.win 12).blk t).view.set ↔ ∀ a : Fin 2, win0_12.index t a * S1024x1024.size a ≤ (i a).val ∧ (i a).val < win0_12.index t a * S1024x1024.size a + S1024x1024.size a := by
  show i ∈ ((View.whole main_v8_1).slice (win0_12.rect t)).set ↔ _
  rw [View.set_slice_whole, Rect.mem_set_unit]
  exact Iff.rfl

/-- The last point's block is the whole second result. -/
theorem cover12 (i : S1024x1024.Idx) :
    ∃ t : Fin cfg0.N, (cfg0.win 12).flush t = true ∧ i ∈ ((cfg0.win 12).blk t).view.set := by
  have hi0 : (i 0).val < 1024 := (i 0).isLt
  have hi1 : (i 1).val < 1024 := (i 1).isLt
  refine ⟨tLast, (flush0_12 tLast).mpr rfl, ?_⟩
  rw [mem_blk12]
  intro a
  match a with
  | ⟨0, _⟩ =>
    show win0_12.index tLast (0 : Fin 2) * 1024 ≤ (i 0).val ∧ (i 0).val < win0_12.index tLast (0 : Fin 2) * 1024 + 1024
    rw [(idx12 tLast).1]; omega
  | ⟨1, _⟩ =>
    show win0_12.index tLast (1 : Fin 2) * 1024 ≤ (i 1).val ∧ (i 1).val < win0_12.index tLast (1 : Fin 2) * 1024 + 1024
    rw [(idx12 tLast).2]; omega

/-- The second result after the run. -/
theorem final12 (c : Dev nD) : (dats m 0 c).arrAt 12 cfg0.N = memArr m c :=
  (dats m 0 c).arrAt_eq_of_cover 12 (memArr m c) (flushed12_eq m c) cover12

/-- The idealized kernel's run: both results at the specification's arrays of the arguments, the arguments unchanged. -/
theorem run : θ_run defs (onTc (τ := τ) (main (F := Ideal))) ⟨m, fun _ => 0, ρ⟩ fun r => ∀ c : Dev nD,
      r.2.mem ((c : Thread nD τ).loc main_v8_0) = outArr m c
      ∧ r.2.mem ((c : Thread nD τ).loc main_v8_1) = memArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final11 m c), (h c).2.1.trans (final12 m c), (h c).2.2⟩)
    (Cert.KernelIdeal.Value.run_blocks m ρ)

end Cert.KernelIdeal.Cell

end
-- ==== Proof.RefBase.lean ====
/-
  The reference's two matrix products read at coordinates: `x · Wᵀ` (through the host's transpose of the
  weights) and `x · M`, each a sum over the contracted axis.
-/
import proofs.«126891_j18769007084097_1_alg».proof.Proof.RefRead
import proofs.«126891_j18769007084097_1_alg».proof.Proof.Spec

noncomputable section

namespace Cert.ReferenceIdeal.Cell

open Cert.ReferenceIdeal Cert.ReferenceIdeal.ReadP Idealize.ShloMosaic Idealize.ShloMosaic.ValueIdx

/-- The projection at row `b`, column `h`. -/
theorem v1_apply (x0 : (⟨S16384x1024, .f32⟩ : BufTy).Contents (Elt Ideal)) (x1 : (⟨S1024x1024, .f32⟩ : BufTy).Contents (Elt Ideal))
    (b : Fin 16384) (h : Fin 1024) :
    val_main_v1 (F := Ideal) x0 x1 (ix2 b h) = Cert.Spec.vc x0 x1 b h := by
  -- the product is the sum over the contracted axis; the right factor is the transposed weights
  rw [val_main_v1_apply]
  unfold Cert.Spec.vc Cert.Spec.proj
  refine Finset.sum_congr rfl fun k _ => ?_
  -- the left factor is read at row `b`, contracted position `k`
  have el : lidx_main_v1 (ix2 b h) k = ix2 b k := funext fun a => Fin.ext (by
    match a with
    | ⟨0, _⟩ => rfl
    | ⟨1, _⟩ => rfl)
  -- the transpose sends position `(k, h)` of the right factor to entry `(h, k)` of the weights
  have er : idx_main_v0 (ridx_main_v1 (ix2 b h) k) = ix2 h k := funext fun a => Fin.ext (by
    match a with
    | ⟨0, _⟩ => rfl
    | ⟨1, _⟩ => rfl)
  rw [val_main_v0_apply, el, er]

/-- The prediction at row `b`, column `d`. -/
theorem v2_apply (x0 : (⟨S16384x1024, .f32⟩ : BufTy).Contents (Elt Ideal)) (x2 : (⟨S1024x1024, .f32⟩ : BufTy).Contents (Elt Ideal))
    (b : Fin 16384) (d : Fin 1024) :
    val_main_v2 (F := Ideal) x0 x2 (ix2 b d) = Cert.Spec.yc x0 x2 b d := by
  rw [val_main_v2_apply]
  unfold Cert.Spec.yc Cert.Spec.proj
  refine Finset.sum_congr rfl fun k _ => ?_
  have el : lidx_main_v2 (ix2 b d) k = ix2 b k := funext fun a => Fin.ext (by
    match a with
    | ⟨0, _⟩ => rfl
    | ⟨1, _⟩ => rfl)
  -- the memory is read untransposed: position `(k, d)`
  have er : ridx_main_v2 (ix2 b d) k = ix2 k d := funext fun a => Fin.ext (by
    match a with
    | ⟨0, _⟩ => rfl
    | ⟨1, _⟩ => rfl)
  rw [el, er]

end Cert.ReferenceIdeal.Cell

end
-- ==== Proof.RefOut.lean ====
/-
  The reference's first result is the mixed output of the specification, index by index.
-/
import proofs.«126891_j18769007084097_1_alg».proof.Proof.RefRead
import proofs.«126891_j18769007084097_1_alg».proof.Proof.Spec
import proofs.«126891_j18769007084097_1_alg».proof.Proof.RefBase

noncomputable section

namespace Cert.ReferenceIdeal.Cell

open Cert.ReferenceIdeal Cert.ReferenceIdeal.ReadP Idealize.ShloMosaic Idealize.ShloMosaic.ValueIdx

/-- The word of 1.0 is the number one. -/
theorem oneW_eq_one : Ideal.ofBits .f32 0x3F800000#32 = (1 : EReal) := by
  simp [Ideal.ofBits, Ideal.ieee, -EReal.coe_mul]; norm_num

/-- The host spells the logistic as `1 / (1 + exp (-z))` with two words of 1.0; it is the logistic. -/
theorem host_sigmoid (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  simp only [Ideal.ofBits_def, oneW_eq_one]
  rfl

/-- The mixing gate of row `b`: the logistic of the row's projection against the gate row, plus the bias. -/
theorem v50_apply (x0 : (⟨S16384x1024, .f32⟩ : BufTy).Contents (Elt Ideal)) (x1 : (⟨S1024x1024, .f32⟩ : BufTy).Contents (Elt Ideal))
    (x7 : (⟨S1x1024, .f32⟩ : BufTy).Contents (Elt Ideal)) (x8 : (⟨S1, .f32⟩ : BufTy).Contents (Elt Ideal)) (b : Fin 16384) :
    val_main_v50 (F := Ideal) x0 x1 x7 x8 (ix2 b 0) = Cert.Spec.mixc x0 x1 x7 x8 b := by
  rw [val_main_v50_apply, val_main_v49_apply, val_main_cst_10_apply, val_main_v48_apply, val_main_v47_apply,
    val_main_cst_9_apply, val_main_v46_apply, val_main_v45_apply, val_main_v44_apply, host_sigmoid,
    val_main_v41_apply, val_main_v43_apply, val_main_v42_apply]
  -- the bias is the one entry of its array
  have eb : idx_main_v42 (idx_main_v43 (ix2 b (0 : Fin 1))) = ix1 0 := funext fun a => Fin.ext (by
    match a with
    | ⟨0, _⟩ => rfl)
  -- each term of the row sum: the projection at `(b, k)` times entry `k` of the gate row (through its transpose)
  have hs : ∀ k : Fin 1024,
      val_main_v1 (F := Ideal) x0 x1 (lidx_main_v41 (ix2 b (0 : Fin 1)) k)
          * val_main_v40 (F := Ideal) x7 (ridx_main_v41 (ix2 b (0 : Fin 1)) k)
        = Cert.Spec.vc x0 x1 b k * x7 (ix2 0 k) := by
    intro k
    have el : lidx_main_v41 (ix2 b (0 : Fin 1)) k = ix2 b k := funext fun a => Fin.ext (by
      match a with
      | ⟨0, _⟩ => rfl
      | ⟨1, _⟩ => rfl)
    have er : idx_main_v40 (ridx_main_v41 (ix2 b (0 : Fin 1)) k) = ix2 0 k := funext fun a => Fin.ext (by
      match a with
      | ⟨0, _⟩ => rfl
      | ⟨1, _⟩ => rfl)
    rw [el, v1_apply, val_main_v40_apply, er]
  rw [Finset.sum_congr rfl (fun k _ => hs k), eb]
  rfl

theorem ref_out (x0 : (⟨S16384x1024, .f32⟩ : BufTy).Contents (Elt Ideal)) (x1 x2 : (⟨S1024x1024, .f32⟩ : BufTy).Contents (Elt Ideal))
    (x7 : (⟨S1x1024, .f32⟩ : BufTy).Contents (Elt Ideal)) (x8 : (⟨S1, .f32⟩ : BufTy).Contents (Elt Ideal)) :
    val_main_v57 (F := Ideal) x0 x1 x2 x7 x8 = Cert.Spec.outG x0 x1 x2 x7 x8 := by
  funext i
  obtain ⟨b, h, rfl⟩ : ∃ (b : Fin 16384) (h : Fin 1024), i = ix2 b h := ⟨i 0, i 1, eq_ix2 i⟩
  -- both broadcasts of a per-row column read it at row `b`
  have e51 : idx_main_v51 (ix2 b h) = ix2 b (0 : Fin 1) := funext fun a => Fin.ext (by
    match a with
    | ⟨0, _⟩ => rfl
    | ⟨1, _⟩ => rfl)
  have e55 : idx_main_v55 (ix2 b h) = ix2 b (0 : Fin 1) := funext fun a => Fin.ext (by
    match a with
    | ⟨0, _⟩ => rfl
    | ⟨1, _⟩ => rfl)
  rw [val_main_v57_apply, val_main_v52_apply, val_main_v56_apply, val_main_v51_apply, val_main_v55_apply,
    e51, e55, val_main_v54_apply, val_main_v53_apply, val_main_cst_11_apply, v50_apply, v1_apply, v2_apply]
  rfl

end Cert.ReferenceIdeal.Cell

end
-- ==== Proof.RefMem.lean ====
/-
  The reference's second result is the updated memory of the specification, index by index.
-/
import proofs.«126891_j18769007084097_1_alg».proof.Proof.RefRead
import proofs.«126891_j18769007084097_1_alg».proof.Proof.Spec
import proofs.«126891_j18769007084097_1_alg».proof.Proof.RefBase

noncomputable section

namespace Cert.ReferenceIdeal.Cell

open Cert.ReferenceIdeal Cert.ReferenceIdeal.ReadP Idealize.ShloMosaic Idealize.ShloMosaic.ValueIdx

namespace Mem

/-- The word of 1.0 is the extended real one. -/
theorem one_word : Ideal.ofBits .f32 0x3F800000#32 = 1 := by
  simp [Ideal.ofBits, Ideal.ieee, -EReal.coe_mul]; norm_num

/-- A sum over every index of a column is the sum over its rows. -/
theorem sum_col {M : Type*} [AddCommMonoid M] (f : (⟨2, ![16384, 1]⟩ : Shape).Idx → M) :
    ∑ j, f j = ∑ b : Fin 16384, f (ix2 b 0) := by
  rw [sum_idx2]
  refine Finset.sum_congr rfl fun b _ => ?_
  rw [Fin.sum_univ_one]

variable (x0 : (⟨S16384x1024, .f32⟩ : BufTy).Contents (Elt Ideal)) (x1 x2 : (⟨S1024x1024, .f32⟩ : BufTy).Contents (Elt Ideal))
  (w : (⟨S1x2048, .f32⟩ : BufTy).Contents (Elt Ideal)) (bias : (⟨S1, .f32⟩ : BufTy).Contents (Elt Ideal))

/-- The first 1024 lanes of the joined row are the projection's row. -/
theorem v4_left (b : Fin 16384) (h : Fin 1024) :
    val_main_v4 (F := Ideal) x0 x1 (ix2 b ⟨h.val, by have := h.isLt; omega⟩) = val_main_v1 (F := Ideal) x0 x1 (ix2 b h) := by
  unfold val_main_v4
  exact concatenate_pair_apply_left (t := S16384x2048) (s₁ := S16384x1024) (s₂ := S16384x1024) 1
    (val_main_v1 (F := Ideal) x0 x1) x0 _ _ rfl (ix2 b h) (fun a => match a with
    | ⟨0, _⟩ => rfl
    | ⟨1, _⟩ => rfl)

/-- The last 1024 lanes of the joined row are the input's row. -/
theorem v4_right (b : Fin 16384) (d : Fin 1024) :
    val_main_v4 (F := Ideal) x0 x1 (ix2 b ⟨1024 + d.val, by have := d.isLt; omega⟩) = x0 (ix2 b d) := by
  unfold val_main_v4
  exact concatenate_pair_apply_right (t := S16384x2048) (s₁ := S16384x1024) (s₂ := S16384x1024) 1
    (val_main_v1 (F := Ideal) x0 x1) x0 _ _ rfl rfl (ix2 b d) (fun a => match a with
    | ⟨0, _⟩ => fun _ => rfl
    | ⟨1, _⟩ => fun hne => absurd rfl hne)
    (by show d.val + 1024 = 1024 + d.val; omega)

/-- The joined row against a gate row: the projection against the row's first half plus the input against its second. -/
theorem row_sum (v : Fin 16384 → Fin 1024 → EReal)
    (hv : ∀ b h, val_main_v1 (F := Ideal) x0 x1 (ix2 b h) = v b h) (b : Fin 16384) :
    ∑ k : Fin 2048, val_main_v4 (F := Ideal) x0 x1 (ix2 b k) * w (ix2 0 k)
      = (∑ h : Fin 1024, v b h * Cert.Spec.lo w h) + ∑ d : Fin 1024, x0 (ix2 b d) * Cert.Spec.hi w d := by
  rw [Cert.Spec.sum_halves]
  refine congrArg₂ (· + ·) ?_ ?_
  · refine Finset.sum_congr rfl fun h _ => ?_
    rw [v4_left, hv]
  · refine Finset.sum_congr rfl fun d _ => ?_
    rw [v4_right]

/-- The gate's product before the bias, at a row. -/
theorem v6_col (v : Fin 16384 → Fin 1024 → EReal)
    (hv : ∀ b h, val_main_v1 (F := Ideal) x0 x1 (ix2 b h) = v b h) (b : Fin 16384) :
    val_main_v6 (F := Ideal) x0 x1 w (ix2 b 0)
      = (∑ h : Fin 1024, v b h * Cert.Spec.lo w h) + ∑ d : Fin 1024, x0 (ix2 b d) * Cert.Spec.hi w d := by
  rw [val_main_v6_apply]
  refine Eq.trans (Finset.sum_congr rfl fun k _ => ?_) (row_sum x0 x1 w v hv b)
  have el : lidx_main_v6 (ix2 b 0) k = ix2 b k := funext fun a => Fin.ext (by
    match a with
    | ⟨0, _⟩ => rfl
    | ⟨1, _⟩ => rfl)
  have er : idx_main_v5 (ridx_main_v6 (ix2 b 0) k) = ix2 0 k := funext fun a => Fin.ext (by
    match a with
    | ⟨0, _⟩ => rfl
    | ⟨1, _⟩ => rfl)
  rw [val_main_v5_apply, el, er]

/-- The broadcast bias is the bias word at every row. -/
theorem v8_col (j : S16384x1.Idx) : val_main_v8 (F := Ideal) bias j = bias (ix1 0) := by
  rw [val_main_v8_apply, val_main_v7_apply]
  exact congrArg bias (funext fun a => match a with | ⟨0, _⟩ => rfl)

/-- The gate column at a row is the specification's two-part gate over the projection. -/
theorem v15_col (v : Fin 16384 → Fin 1024 → EReal)
    (hv : ∀ b h, val_main_v1 (F := Ideal) x0 x1 (ix2 b h) = v b h) (b : Fin 16384) :
    val_main_v15 (F := Ideal) x0 x1 w bias (ix2 b 0)
      = Cert.Spec.gate2 (Cert.Spec.xc x0) v (Cert.Spec.lo w) (Cert.Spec.hi w) (bias (ix1 0)) b := by
  rw [val_main_v15_apply, val_main_v14_apply, val_main_cst_0_apply, val_main_v13_apply, val_main_v12_apply,
    val_main_cst_apply, val_main_v11_apply, val_main_v10_apply, val_main_v9_apply, v6_col x0 x1 w v hv, v8_col]
  show Ideal.div (Ideal.ofBits .f32 0x3F800000#32) (Ideal.ofBits .f32 0x3F800000#32 + Ideal.exp (-(_ + _))) = _
  rw [one_word]
  rfl

/-- The total of the gate column, from the zero word: the sum over the rows. -/
theorem v30_total (j : S_.Idx) :
    val_main_v30 (F := Ideal) x0 x1 w bias j = ∑ b : Fin 16384, val_main_v15 (F := Ideal) x0 x1 w bias (ix2 b 0) := by
  rw [val_main_v30_apply, val_main_cst_4_apply]
  show Ideal.ofBits .f32 0x00000000#32 + _ = _
  rw [Ideal.ofBits_zero_f32, zero_add, sum_col]

/-- The mean of a gate column: the total of the gate over the rows, by the batch word. -/
theorem v31_at (v : Fin 16384 → Fin 1024 → EReal)
    (hv : ∀ b h, val_main_v1 (F := Ideal) x0 x1 (ix2 b h) = v b h) (j : S_.Idx) :
    val_main_v31 (F := Ideal) x0 x1 w bias j
      = Ideal.div (∑ b : Fin 16384, Cert.Spec.gate2 (Cert.Spec.xc x0) v (Cert.Spec.lo w) (Cert.Spec.hi w) (bias (ix1 0)) b)
          Cert.Spec.nB := by
  rw [val_main_v31_apply, val_main_cst_5_apply, v30_total]
  simp only [v15_col x0 x1 w bias v hv]
  rfl

/-- The update gate's mean is the forget gate's mean at the other row and bias: the same operations on other arguments. -/
theorem v35_eq : val_main_v35 (F := Ideal) x0 x1 w bias = val_main_v31 (F := Ideal) x0 x1 w bias := rfl

/-- The Hebbian product at a row and a column is the specification's sum of outer products. -/
theorem v27_at (v y : Fin 16384 → Fin 1024 → EReal)
    (hv : ∀ b h, val_main_v1 (F := Ideal) x0 x1 (ix2 b h) = v b h)
    (hy : ∀ b h, val_main_v2 (F := Ideal) x0 x2 (ix2 b h) = y b h) (h d : Fin 1024) :
    val_main_v27 (F := Ideal) x0 x1 x2 (ix2 h d) = Cert.Spec.delta (Cert.Spec.xc x0) v y h d := by
  rw [val_main_v27_apply]
  show _ = ∑ b : Fin 16384, (v b h - y b h) * Cert.Spec.xc x0 b d
  refine Finset.sum_congr rfl fun b _ => ?_
  have el : lidx_main_v27 (ix2 h d) b = ix2 b h := funext fun a => Fin.ext (by
    match a with
    | ⟨0, _⟩ => rfl
    | ⟨1, _⟩ => rfl)
  have er : ridx_main_v27 (ix2 h d) b = ix2 b d := funext fun a => Fin.ext (by
    match a with
    | ⟨0, _⟩ => rfl
    | ⟨1, _⟩ => rfl)
  rw [el, er, val_main_v3_apply, hv, hy]
  all_goals rfl

end Mem

theorem ref_newM (x0 : (⟨S16384x1024, .f32⟩ : BufTy).Contents (Elt Ideal)) (x1 x2 : (⟨S1024x1024, .f32⟩ : BufTy).Contents (Elt Ideal))
    (x3 : (⟨S1x2048, .f32⟩ : BufTy).Contents (Elt Ideal)) (x4 : (⟨S1, .f32⟩ : BufTy).Contents (Elt Ideal))
    (x5 : (⟨S1x2048, .f32⟩ : BufTy).Contents (Elt Ideal)) (x6 : (⟨S1, .f32⟩ : BufTy).Contents (Elt Ideal)) :
    val_main_v39 (F := Ideal) x0 x1 x2 x3 x4 x5 x6 = Cert.Spec.newMG x0 x1 x2 x3 x4 x5 x6 := by
  funext i
  obtain ⟨h, d, rfl⟩ : ∃ (h d : Fin 1024), i = ix2 h d := ⟨i 0, i 1, eq_ix2 i⟩
  rw [val_main_v39_apply, val_main_v33_apply, val_main_v32_apply,
    Mem.v31_at x0 x1 x3 x4 (Cert.Spec.vc x0 x1) (v1_apply x0 x1),
    val_main_v38_apply, val_main_v37_apply, val_main_v36_apply, Mem.v35_eq,
    Mem.v31_at x0 x1 x5 x6 (Cert.Spec.vc x0 x1) (v1_apply x0 x1),
    val_main_cst_8_apply, val_main_v29_apply, val_main_v28_apply, val_main_cst_3_apply,
    Mem.v27_at x0 x1 x2 (Cert.Spec.vc x0 x1) (Cert.Spec.yc x0 x2) (v1_apply x0 x1) (v2_apply x0 x2)]
  rfl

end Cert.ReferenceIdeal.Cell

end
-- ==== Proof.lean ====
/-
  The certificate of the gated Hebbian memory cell: a Pallas kernel that streams the batch in 32 tiles of 512 rows,
  keeping the Hebbian sum and the two gate totals in accumulators across the grid, against its plain reference.

  Over the extended reals both programs compute, from the batch x, the slow weights W, the memory M, two two-part
  gate rows, a mixing row and three biases,
    out  = mix · (x Wᵀ) + (1 − mix) · (x M),            mix = σ((x Wᵀ) · w + b),
    M'   = mean(forget) · M + (mean(update) · 0.1) · (Σ_b (x Wᵀ − x M)_b ⊗ x_b) / n,
  with forget, update = σ((x Wᵀ) · w_v + x · w_x + b). The kernel reaches the two means and the Hebbian sum tile by
  tile, the reference in one sum over the batch, and the reference's gate rows meet the concatenation [x Wᵀ | x]
  where the kernel adds two row sums: sums of a commutative monoid regrouped, so the inputs' finiteness is never
  used. The kernel's logistic and the reference's 1 / (1 + e^(−z)) are one function of the extended reals.

  The three frames: the two kernels' are the generated frame runs; the reference's is its run with the results
  dropped. The idealization rewrote nothing, so `preserves` is `True`.
-/
import proofs.«126891_j18769007084097_1_alg».proof.Defs
import proofs.«126891_j18769007084097_1_alg».proof.Proof.Gen.Kernel
import proofs.«126891_j18769007084097_1_alg».proof.Proof.Gen.Kernel.Skeleton
import proofs.«126891_j18769007084097_1_alg».proof.Proof.Gen.Kernel.Launch
import proofs.«126891_j18769007084097_1_alg».proof.Proof.Gen.Kernel.Points
import proofs.«126891_j18769007084097_1_alg».proof.Proof.Gen.Kernel.Frame
import proofs.«126891_j18769007084097_1_alg».proof.Proof.Gen.KernelIdeal
import proofs.«126891_j18769007084097_1_alg».proof.Proof.Gen.KernelIdeal.Skeleton
import proofs.«126891_j18769007084097_1_alg».proof.Proof.Gen.KernelIdeal.Launch
import proofs.«126891_j18769007084097_1_alg».proof.Proof.Gen.KernelIdeal.Points
import proofs.«126891_j18769007084097_1_alg».proof.Proof.Gen.KernelIdeal.Frame
import proofs.«126891_j18769007084097_1_alg».proof.Proof.Gen.ReferenceIdeal
import proofs.«126891_j18769007084097_1_alg».proof.Proof.Gen.Pre_finite_inputs
import proofs.«126891_j18769007084097_1_alg».proof.Proof.Gen.KernelIdeal.Value
import proofs.«126891_j18769007084097_1_alg».proof.Proof.KFinal
import proofs.«126891_j18769007084097_1_alg».proof.Proof.RefOut
import proofs.«126891_j18769007084097_1_alg».proof.Proof.RefMem
import proofs.«126891_j18769007084097_1_alg».proof.Proof.RefRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RunP.run (F := Ideal) m ρ)

/-- Both idealized programs end at the specification's two arrays of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Cell.outArr m c, fun c => Cert.KernelIdeal.Cell.memArr m c, Cert.KernelIdeal.Cell.run m ρ, ?_⟩
  refine (θ_run Cert.ReferenceIdeal.defs _ _).mono (fun _ h c => ⟨(h c).1.trans ?_, (h c).2.1.trans ?_, (h c).2.2⟩)
    (Cert.ReferenceIdeal.RunP.run (F := Ideal) m' ρ')
  · refine ((Cert.ReferenceIdeal.ReadP.val_main_v57_eq _ _ _ _ _).trans (Cert.ReferenceIdeal.Cell.ref_out _ _ _ _ _)).trans ?_
    rw [(hagree c).1, (hagree c).2.1, (hagree c).2.2.1, (hagree c).2.2.2.2.2.2.2.1, (hagree c).2.2.2.2.2.2.2.2]
  · refine ((Cert.ReferenceIdeal.ReadP.val_main_v39_eq _ _ _ _ _ _ _).trans (Cert.ReferenceIdeal.Cell.ref_newM _ _ _ _ _ _ _)).trans ?_
    rw [(hagree c).1, (hagree c).2.1, (hagree c).2.2.1, (hagree c).2.2.2.1, (hagree c).2.2.2.2.1, (hagree c).2.2.2.2.2.1,
      (hagree c).2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
